-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)) (v2 : (c : Dev Cert.KernelIdeal.nD) → Buf (Elt Ideal) ((c.tc : Thread Cert.KernelIdeal.nD Cert.KernelIdeal.τ).loc Cert.KernelIdeal.main_v51_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_v51_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S2000x128 : Shape := ⟨2, ![2000, 128]⟩
abbrev S4096 : Shape := ⟨1, ![4096]⟩
abbrev S100000 : Shape := ⟨1, ![100000]⟩
abbrev S2000 : Shape := ⟨1, ![2000]⟩
abbrev S1500 : Shape := ⟨1, ![1500]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S2000x128 : S_.BroadcastsInDim S2000x128 (![] : Fin 0 → Fin S2000x128.rank)
  reducesTo_S2000x128_S_d0_1 : S2000x128.ReducesTo [0, 1] S_
  bcast_S_S4096 : S_.BroadcastsInDim S4096 (![] : Fin 0 → Fin S4096.rank)
  reducesTo_S4096_S_d0 : S4096.ReducesTo [0] S_
  bcast_S_S100000 : S_.BroadcastsInDim S100000 (![] : Fin 0 → Fin S100000.rank)
  reducesTo_S100000_S_d0 : S100000.ReducesTo [0] S_
  bcast_S_S1500 : S_.BroadcastsInDim S1500 (![] : Fin 0 → Fin S1500.rank)
  reducesTo_S1500_S_d0 : S1500.ReducesTo [0] S_

variable [Facts]

def fn_part1 {F : FTy → Type} [FloatOps F] (main_arg4 : IVec S100000 32) (main_arg7 : IVec S1500 32) (main_v13 : IVec S_ 1) (main_v15 : IVec S100000 1) (main_c_5 : IVec S_ 32) : IVec S_ 1 :=
  let main_v16 : IVec S100000 32 := broadcastInDim S100000 ![] bcast_S_S100000 main_c_5
  let main_v17 : IVec S100000 1 := cmpi .slt main_arg4 main_v16
  let main_v18 : IVec S100000 1 := andi main_v15 main_v17
  let main_c_6 : IVec S_ 1 := constantI S_ 1 1#1
  let main_v19 : IVec S_ 1 := (fun x v => Host.reduce IntOp.andi x v reducesTo_S100000_S_d0 h_S_) main_v18 main_c_6
  let main_v20 : IVec S_ 1 := andi main_v13 main_v19
  let main_c_7 : IVec S_ 32 := constantI S_ 32 0#32
  let main_v21 : IVec S1500 32 := broadcastInDim S1500 ![] bcast_S_S1500 main_c_7
  let main_v22 : IVec S1500 1 := cmpi .sge main_arg7 main_v21
  let main_c_8 : IVec S_ 32 := constantI S_ 32 2000#32
  let main_v23 : IVec S1500 32 := broadcastInDim S1500 ![] bcast_S_S1500 main_c_8
  let main_v24 : IVec S1500 1 := cmpi .slt main_arg7 main_v23
  let main_v25 : IVec S1500 1 := andi main_v22 main_v24
  let main_c_9 : IVec S_ 1 := constantI S_ 1 1#1
  let main_v26 : IVec S_ 1 := (fun x v => Host.reduce IntOp.andi x v reducesTo_S1500_S_d0 h_S_) main_v25 main_c_9
  let main_v27 : IVec S_ 1 := andi main_v20 main_v26
  main_v27

def fn {F : FTy → Type} [FloatOps F] (main_arg0 : FVec F S4096x256 .f32) (main_arg1 : FVec F S2000x128 .f32) (main_arg2 : FVec F S4096 .f32) (main_arg3 : IVec S4096 32) (main_arg4 : IVec S100000 32) (main_arg5 : IVec S2000x128 32) (main_arg6 : IVec S2000 32) (main_arg7 : IVec S1500 32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S2000x128 .f32 := Host.absf main_arg1
  let main_cst_0 : FVec F S_ .f32 := constant S_ .f32 0x7F800000#32
  let main_v5 : FVec F S2000x128 .f32 := broadcastInDim S2000x128 ![] bcast_S_S2000x128 main_cst_0
  let main_v6 : IVec S2000x128 1 := cmpf .olt main_v4 main_v5
  let main_c_1 : IVec S_ 1 := constantI S_ 1 1#1
  let main_v7 : IVec S_ 1 := (fun x v => Host.reduce IntOp.andi x v reducesTo_S2000x128_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S100000 32 := broadcastInDim S100000 ![] bcast_S_S100000 main_c_4
  let main_v15 : IVec S100000 1 := cmpi .sge main_arg4 main_v14
  let main_c_5 : IVec S_ 32 := constantI S_ 32 2000#32
  fn_part1 (F := F) main_arg4 main_arg7 main_v13 main_v15 main_c_5
-- ==== Kernel.lean ====
abbrev S4096x256 : Shape := ⟨2, ![4096, 256]⟩
abbrev S2000x128 : Shape := ⟨2, ![2000, 128]⟩
abbrev S4096 : Shape := ⟨1, ![4096]⟩
abbrev S100000 : Shape := ⟨1, ![100000]⟩
abbrev S2000 : Shape := ⟨1, ![2000]⟩
abbrev S1500 : Shape := ⟨1, ![1500]⟩
abbrev S_ : Shape := ⟨0, ![]⟩
abbrev S4096x1 : Shape := ⟨2, ![4096, 1]⟩
abbrev S1500x1 : Shape := ⟨2, ![1500, 1]⟩
abbrev S4096x128 : Shape := ⟨2, ![4096, 128]⟩
abbrev S4096x2 : Shape := ⟨2, ![4096, 2]⟩
abbrev S4096x128x256 : Shape := ⟨3, ![4096, 128, 256]⟩
abbrev S128x128 : Shape := ⟨2, ![128, 128]⟩
abbrev S128x2 : Shape := ⟨2, ![128, 2]⟩
abbrev S128x256 : Shape := ⟨2, ![128, 256]⟩
abbrev S128x128x256 : Shape := ⟨3, ![128, 128, 256]⟩
abbrev S128x1 : Shape := ⟨2, ![128, 1]⟩
abbrev S128x128x1 : Shape := ⟨3, ![128, 128, 1]⟩
abbrev S128x1x256 : Shape := ⟨3, ![128, 1, 256]⟩

abbrev nBuf : Space → Nat
  | .hbm => 80
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S2000x128, .f32⟩
  | .hbm, ⟨2, _⟩ => ⟨S4096, .f32⟩
  | .hbm, ⟨3, _⟩ => ⟨S4096, .i32⟩
  | .hbm, ⟨4, _⟩ => ⟨S100000, .i32⟩
  | .hbm, ⟨5, _⟩ => ⟨S2000x128, .i32⟩
  | .hbm, ⟨6, _⟩ => ⟨S2000, .i32⟩
  | .hbm, ⟨7, _⟩ => ⟨S1500, .i32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S4096, .i32⟩
  | .hbm, ⟨17, _⟩ => ⟨S_, .i32⟩
  | .hbm, ⟨18, _⟩ => ⟨S2000, .i32⟩
  | .hbm, ⟨19, _⟩ => ⟨S_, .i32⟩
  | .hbm, ⟨20, _⟩ => ⟨S1500, .i32⟩
  | .hbm, ⟨21, _⟩ => ⟨S1500, .i1⟩
  | .hbm, ⟨22, _⟩ => ⟨S_, .i32⟩
  | .hbm, ⟨23, _⟩ => ⟨S1500, .i32⟩
  | .hbm, ⟨24, _⟩ => ⟨S1500, .i32⟩
  | .hbm, ⟨25, _⟩ => ⟨S1500, .i32⟩
  | .hbm, ⟨26, _⟩ => ⟨S1500x1, .i32⟩
  | .hbm, ⟨27, _⟩ => ⟨S_, .i32⟩
  | .hbm, ⟨28, _⟩ => ⟨S1500, .i32⟩
  | .hbm, ⟨29, _⟩ => ⟨S2000, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S4096x1, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i1⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S4096, .i32⟩
  | .hbm, ⟨49, _⟩ => ⟨S4096x1, .i32⟩
  | .hbm, ⟨50, _⟩ => ⟨S4096x128, .f32⟩
  | .hbm, ⟨51, _⟩ => ⟨S_, .i32⟩
  | .hbm, ⟨52, _⟩ => ⟨S4096, .i32⟩
  | .hbm, ⟨53, _⟩ => ⟨S4096, .i1⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096x1, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x128, .i32⟩
  | .hbm, ⟨69, _⟩ => ⟨S_, .i32⟩
  | .hbm, ⟨70, _⟩ => ⟨S_, .i32⟩
  | .hbm, ⟨71, _⟩ => ⟨S4096, .i32⟩
  | .hbm, ⟨72, _⟩ => ⟨S4096, .i32⟩
  | .hbm, ⟨73, _⟩ => ⟨S4096, .f32⟩
  | .hbm, ⟨74, _⟩ => ⟨S4096x1, .f32⟩
  | .hbm, ⟨75, _⟩ => ⟨S4096x1, .f32⟩
  | .hbm, ⟨76, _⟩ => ⟨S4096x2, .f32⟩
  | .hbm, ⟨77, _⟩ => ⟨S4096x128x256, .f32⟩
  | .hbm, ⟨78, _⟩ => ⟨S4096x128, .i32⟩
  | .hbm, ⟨79, _⟩ => ⟨S4096x128, .f32⟩
  | .local _ .vmem, ⟨0, _⟩ => ⟨S128x128, .f32⟩
  | .local _ .vmem, ⟨1, _⟩ => ⟨S128x128, .f32⟩
  | .local _ .vmem, ⟨2, _⟩ => ⟨S128x2, .f32⟩
  | .local _ .vmem, ⟨3, _⟩ => ⟨S128x2, .f32⟩
  | .local _ .vmem, ⟨4, _⟩ => ⟨S128x256, .f32⟩
  | .local _ .vmem, ⟨5, _⟩ => ⟨S128x256, .f32⟩
  | .local _ .vmem, ⟨6, _⟩ => ⟨S128x128, .i32⟩
  | .local _ .vmem, ⟨7, _⟩ => ⟨S128x128, .i32⟩
  | .local _ .vmem, ⟨8, _⟩ => ⟨S128x128x256, .f32⟩
  | .local _ .vmem, ⟨9, _⟩ => ⟨S128x128x256, .f32⟩
  | .local _ .vmem, ⟨10, _⟩ => ⟨S128x128, .i32⟩
  | .local _ .vmem, ⟨11, _⟩ => ⟨S128x128, .i32⟩
  | .local _ .vmem, ⟨12, _⟩ => ⟨S128x128, .f32⟩
  | .local _ .vmem, ⟨13, _⟩ => ⟨S128x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_c_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_7 : Ref sig .tc := ⟨.hbm, 39, rfl⟩
abbrev main_v23 : Ref sig .tc := ⟨.hbm, 40, rfl⟩
abbrev main_v24 : Ref sig .tc := ⟨.hbm, 41, rfl⟩
abbrev main_c_8 : Ref sig .tc := ⟨.hbm, 42, rfl⟩
abbrev main_v25 : Ref sig .tc := ⟨.hbm, 43, rfl⟩
abbrev main_v26 : Ref sig .tc := ⟨.hbm, 44, rfl⟩
abbrev main_c_9 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_10 : Ref sig .tc := ⟨.hbm, 51, rfl⟩
abbrev main_v32 : Ref sig .tc := ⟨.hbm, 52, rfl⟩
abbrev main_v33 : Ref sig .tc := ⟨.hbm, 53, rfl⟩
abbrev main_c_11 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_12 : Ref sig .tc := ⟨.hbm, 60, rfl⟩
abbrev main_v39 : Ref sig .tc := ⟨.hbm, 61, rfl⟩
abbrev main_v40 : Ref sig .tc := ⟨.hbm, 62, rfl⟩
abbrev main_c_13 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_14 : Ref sig .tc := ⟨.hbm, 69, rfl⟩
abbrev main_call0_v0 : Ref sig .tc := ⟨.hbm, 70, rfl⟩
abbrev main_call0_v1 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51_0 : Ref sig .tc := ⟨.hbm, 77, rfl⟩
abbrev main_v51_1 : Ref sig .tc := ⟨.hbm, 78, rfl⟩
abbrev main_v51_2 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S2000 : S_.BroadcastsInDim S2000 (![] : Fin 0 → Fin S2000.rank)
  bcast_S_S1500 : S_.BroadcastsInDim S1500 (![] : Fin 0 → Fin S1500.rank)
  bcast_S1500_S1500x1_0 : S1500.BroadcastsInDim S1500x1 (![0] : Fin 1 → Fin S1500x1.rank)
  concatenates_S4096x1_S4096x1_S4096x2_d1 : Shape.Concatenates [S4096x1, S4096x1] S4096x2 1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x2_S128x1_0_0 : ∀ a, (![0, 0] : Fin 2 → Nat) a + S128x1.size a ≤ S128x2.size a
  h_S128x1 : 0 < S128x1.numel
  shapeCasts_S128x1_S128x1 : S128x1.ShapeCasts S128x1
  inb_S128x2_S128x1_0_1 : ∀ a, (![0, 1] : Fin 2 → Nat) a + S128x1.size a ≤ S128x2.size a
  inb_S128x256_S128x256_0_0 : ∀ a, (![0, 0] : Fin 2 → Nat) a + S128x256.size a ≤ S128x256.size a
  h_S128x256 : 0 < S128x256.numel
  iota_S128x128_d1_w32 : S128x128.Iotas .tc 32 [1]
  broadcasts_S128x1_S128x128 : S128x1.Broadcasts S128x128
  shapeCasts_S128x128_S128x128x1 : S128x128.ShapeCasts S128x128x1
  shapeCasts_S128x256_S128x1x256 : S128x256.ShapeCasts S128x1x256
  broadcasts_S128x128x1_S128x128x256 : S128x128x1.Broadcasts S128x128x256
  broadcasts_S128x1x256_S128x128x256 : S128x1x256.Broadcasts S128x128x256
  inb_S128x128x256_S128x128x256_0_0_0 : ∀ a, (![0, 0, 0] : Fin 3 → Nat) a + S128x128x256.size a ≤ S128x128x256.size a
  h_S128x128x256 : 0 < S128x128x256.numel
  gather_S100000_S4096x1_S4096_n_0_n_n_0_1_1_wf : GatherDims.WF S100000 S4096x1 S4096 [] [0] [] [0] [] 1 ![1]
  scatter_S2000_S1500x1_S1500_n_0_0_1_wf : ScatterDims.WF S2000 S1500x1 S1500 [] [0] [0] 1
  gather_S2000_S4096x1_S4096_n_0_n_n_0_1_1_wf : GatherDims.WF S2000 S4096x1 S4096 [] [0] [] [0] [] 1 ![1]
  gather_S2000x128_S4096x1_S4096x128_1_0_n_n_0_1_1128_wf : GatherDims.WF S2000x128 S4096x1 S4096x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S4096x128.size a
  hwx0_0 : ∀ i : grid0.Coords, EltTy.bits .f32 = 32 ∨ (Rect.block (s := S4096x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2.size a ≤ S4096x2.size a
  hwx0_1 : ∀ i : grid0.Coords, EltTy.bits .f32 = 32 ∨ (Rect.block (s := S4096x2) S128x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S4096x256.size a
  hwx0_2 : ∀ i : grid0.Coords, EltTy.bits .f32 = 32 ∨ (Rect.block (s := S4096x256) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S4096x128.size a
  hwx0_3 : ∀ i : grid0.Coords, EltTy.bits .i32 = 32 ∨ (Rect.block (s := S4096x128) S128x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128x256.size a ≤ S4096x128x256.size a
  hwx0_4 : ∀ i : grid0.Coords, EltTy.bits .f32 = 32 ∨ (Rect.block (s := S4096x128x256) S128x128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S4096x128.size a
  hwx0_5 : ∀ i : grid0.Coords, EltTy.bits .i32 = 32 ∨ (Rect.block (s := S4096x128) S128x128.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S4096x128.size a
  hwx0_6 : ∀ i : grid0.Coords, EltTy.bits .f32 = 32 ∨ (Rect.block (s := S4096x128) S128x128.size (cc0_transform_6 i) (hinb0_6 i)).WholeWords (EltTy.packing .f32)

variable [Facts₀]

def gather_S100000_S4096x1_S4096_n_0_n_n_0_1_1 : GatherDims S100000 S4096x1 S4096 where
  offsetDims := []
  collapsedSliceDims := [0]
  operandBatchingDims := []
  startIndicesBatchingDims := []
  startIndexMap := [0]
  indexVectorDim := 1
  sliceSizes := ![1]
  wf := gather_S100000_S4096x1_S4096_n_0_n_n_0_1_1_wf
def scatter_S2000_S1500x1_S1500_n_0_0_1 : ScatterDims S2000 S1500x1 S1500 where
  updateWindowDims := []
  insertedWindowDims := [0]
  scatterDimsToOperandDims := [0]
  indexVectorDim := 1
  wf := scatter_S2000_S1500x1_S1500_n_0_0_1_wf
def gather_S2000_S4096x1_S4096_n_0_n_n_0_1_1 : GatherDims S2000 S4096x1 S4096 where
  offsetDims := []
  collapsedSliceDims := [0]
  operandBatchingDims := []
  startIndicesBatchingDims := []
  startIndexMap := [0]
  indexVectorDim := 1
  sliceSizes := ![1]
  wf := gather_S2000_S4096x1_S4096_n_0_n_n_0_1_1_wf
def gather_S2000x128_S4096x1_S4096x128_1_0_n_n_0_1_1128 : GatherDims S2000x128 S4096x1 S4096x128 where
  offsetDims := [1]
  collapsedSliceDims := [0]
  operandBatchingDims := []
  startIndicesBatchingDims := []
  startIndexMap := [0]
  indexVectorDim := 1
  sliceSizes := ![1, 128]
  wf := gather_S2000x128_S4096x1_S4096x128_1_0_n_n_0_1_1128_wf

abbrev win0_0 : Pipeline.Window sig grid0 :=
  Pipeline.Window.ofSpec (Memref.whole main_v31) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S128x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v45) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v51_0) S128x128x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v51_1) S128x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v51_2) S128x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x256 : Shape := ⟨2, ![4096, 256]⟩
abbrev S2000x128 : Shape := ⟨2, ![2000, 128]⟩
abbrev S4096 : Shape := ⟨1, ![4096]⟩
abbrev S100000 : Shape := ⟨1, ![100000]⟩
abbrev S2000 : Shape := ⟨1, ![2000]⟩
abbrev S1500 : Shape := ⟨1, ![1500]⟩
abbrev S_ : Shape := ⟨0, ![]⟩
abbrev S4096x1 : Shape := ⟨2, ![4096, 1]⟩
abbrev S1x4096 : Shape := ⟨2, ![1, 4096]⟩
abbrev S1500x1 : Shape := ⟨2, ![1500, 1]⟩
abbrev S1500x4096 : Shape := ⟨2, ![1500, 4096]⟩
abbrev S4096x128 : Shape := ⟨2, ![4096, 128]⟩
abbrev S128 : Shape := ⟨1, ![128]⟩
abbrev S1x128 : Shape := ⟨2, ![1, 128]⟩
abbrev S4096x128x1 : Shape := ⟨3, ![4096, 128, 1]⟩
abbrev S4096x1x256 : Shape := ⟨3, ![4096, 1, 256]⟩
abbrev S4096x128x256 : Shape := ⟨3, ![4096, 128, 256]⟩

abbrev nBuf : Space → Nat
  | .hbm => 81
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S2000x128, .f32⟩
  | .hbm, ⟨2, _⟩ => ⟨S4096, .f32⟩
  | .hbm, ⟨3, _⟩ => ⟨S4096, .i32⟩
  | .hbm, ⟨4, _⟩ => ⟨S100000, .i32⟩
  | .hbm, ⟨5, _⟩ => ⟨S2000x128, .i32⟩
  | .hbm, ⟨6, _⟩ => ⟨S2000, .i32⟩
  | .hbm, ⟨7, _⟩ => ⟨S1500, .i32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S4096, .i32⟩
  | .hbm, ⟨17, _⟩ => ⟨S1x4096, .i32⟩
  | .hbm, ⟨18, _⟩ => ⟨S1500x1, .i32⟩
  | .hbm, ⟨19, _⟩ => ⟨S1500x4096, .i32⟩
  | .hbm, ⟨20, _⟩ => ⟨S1500x4096, .i32⟩
  | .hbm, ⟨21, _⟩ => ⟨S1500x4096, .i1⟩
  | .hbm, ⟨22, _⟩ => ⟨S_, .i1⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096x128, .f32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .i32⟩
  | .hbm, ⟨40, _⟩ => ⟨S4096x1, .i32⟩
  | .hbm, ⟨41, _⟩ => ⟨S4096, .i32⟩
  | .hbm, ⟨42, _⟩ => ⟨S128, .i32⟩
  | .hbm, ⟨43, _⟩ => ⟨S1x128, .i32⟩
  | .hbm, ⟨44, _⟩ => ⟨S4096x1, .i32⟩
  | .hbm, ⟨45, _⟩ => ⟨S4096x128, .i32⟩
  | .hbm, ⟨46, _⟩ => ⟨S4096x128, .i32⟩
  | .hbm, ⟨47, _⟩ => ⟨S4096x128, .i1⟩
  | .hbm, ⟨48, _⟩ => ⟨S4096x1, .i1⟩
  | .hbm, ⟨49, _⟩ => ⟨S4096x128, .i1⟩
  | .hbm, ⟨50, _⟩ => ⟨S4096x128, .i1⟩
  | .hbm, ⟨51, _⟩ => ⟨S4096x128x1, .i1⟩
  | .hbm, ⟨52, _⟩ => ⟨S4096x128x1, .f32⟩
  | .hbm, ⟨53, _⟩ => ⟨S4096x1x256, .f32⟩
  | .hbm, ⟨54, _⟩ => ⟨S4096x128x256, .f32⟩
  | .hbm, ⟨55, _⟩ => ⟨S4096x128x256, .f32⟩
  | .hbm, ⟨56, _⟩ => ⟨S4096x128x256, .f32⟩
  | .hbm, ⟨57, _⟩ => ⟨S_, .f32⟩
  | .hbm, ⟨58, _⟩ => ⟨S_, .f32⟩
  | .hbm, ⟨59, _⟩ => ⟨S4096x128x256, .i1⟩
  | .hbm, ⟨60, _⟩ => ⟨S4096x128x256, .f32⟩
  | .hbm, ⟨61, _⟩ => ⟨S4096x128x256, .f32⟩
  | .hbm, ⟨62, _⟩ => ⟨S_, .i32⟩
  | .hbm, ⟨63, _⟩ => ⟨S4096, .i32⟩
  | .hbm, ⟨64, _⟩ => ⟨S4096, .i1⟩
  | .hbm, ⟨65, _⟩ => ⟨S_, .i32⟩
  | .hbm, ⟨66, _⟩ => ⟨S4096, .i32⟩
  | .hbm, ⟨67, _⟩ => ⟨S4096, .i32⟩
  | .hbm, ⟨68, _⟩ => ⟨S4096, .i32⟩
  | .hbm, ⟨69, _⟩ => ⟨S4096x1, .i32⟩
  | .hbm, ⟨70, _⟩ => ⟨S4096x128, .i32⟩
  | .hbm, ⟨71, _⟩ => ⟨S_, .i32⟩
  | .hbm, ⟨72, _⟩ => ⟨S_, .i32⟩
  | .hbm, ⟨73, _⟩ => ⟨S4096x128, .i32⟩
  | .hbm, ⟨74, _⟩ => ⟨S4096x128, .i32⟩
  | .hbm, ⟨75, _⟩ => ⟨S4096x1, .f32⟩
  | .hbm, ⟨76, _⟩ => ⟨S_, .f32⟩
  | .hbm, ⟨77, _⟩ => ⟨S_, .f32⟩
  | .hbm, ⟨78, _⟩ => ⟨S4096x128, .f32⟩
  | .hbm, ⟨79, _⟩ => ⟨S4096x128, .f32⟩
  | .hbm, ⟨80, _⟩ => ⟨S4096x128, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_v42 : Ref sig .tc := ⟨.hbm, 61, rfl⟩
abbrev main_c_6 : Ref sig .tc := ⟨.hbm, 62, rfl⟩
abbrev main_v43 : Ref sig .tc := ⟨.hbm, 63, rfl⟩
abbrev main_v44 : Ref sig .tc := ⟨.hbm, 64, rfl⟩
abbrev main_c_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_call1_v0 : Ref sig .tc := ⟨.hbm, 72, rfl⟩
abbrev main_call1_v1 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v52 : Ref sig .tc := ⟨.hbm, 80, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1500_S1500x1_0 : S1500.BroadcastsInDim S1500x1 (![0] : Fin 1 → Fin S1500x1.rank)
  bcast_S1x4096_S1500x4096_0_1 : S1x4096.BroadcastsInDim S1500x4096 (![0, 1] : Fin 2 → Fin S1500x4096.rank)
  bcast_S1500x1_S1500x4096_0_1 : S1500x1.BroadcastsInDim S1500x4096 (![0, 1] : Fin 2 → Fin S1500x4096.rank)
  reducesTo_S1500x4096_S4096_d0 : S1500x4096.ReducesTo [0] S4096
  h_S_ : 0 < S_.numel
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S4096x1_S4096x128_0_1 : S4096x1.BroadcastsInDim S4096x128 (![0, 1] : Fin 2 → Fin S4096x128.rank)
  bcast_S4096x128_S4096x128x1_0_1 : S4096x128.BroadcastsInDim S4096x128x1 (![0, 1] : Fin 2 → Fin S4096x128x1.rank)
  bcast_S4096x256_S4096x1x256_0_2 : S4096x256.BroadcastsInDim S4096x1x256 (![0, 2] : Fin 2 → Fin S4096x1x256.rank)
  bcast_S4096x128x1_S4096x128x256_0_1_2 : S4096x128x1.BroadcastsInDim S4096x128x256 (![0, 1, 2] : Fin 3 → Fin S4096x128x256.rank)
  bcast_S4096x1x256_S4096x128x256_0_1_2 : S4096x1x256.BroadcastsInDim S4096x128x256 (![0, 1, 2] : Fin 3 → Fin S4096x128x256.rank)
  bcast_S_S4096x128x256 : S_.BroadcastsInDim S4096x128x256 (![] : Fin 0 → Fin S4096x128x256.rank)
  bcast_S_S4096x128 : S_.BroadcastsInDim S4096x128 (![] : Fin 0 → Fin S4096x128.rank)
  gather_S100000_S4096x1_S4096_n_0_n_n_0_1_1_wf : GatherDims.WF S100000 S4096x1 S4096 [] [0] [] [0] [] 1 ![1]
  gather_S2000x128_S4096x1_S4096x128_1_0_n_n_0_1_1128_wf : GatherDims.WF S2000x128 S4096x1 S4096x128 [1] [0] [] [0] [] 1 ![1, 128]
  gather_S2000_S4096x1_S4096_n_0_n_n_0_1_1_wf : GatherDims.WF S2000 S4096x1 S4096 [] [0] [] [0] [] 1 ![1]

variable [Facts₀]

def gather_S100000_S4096x1_S4096_n_0_n_n_0_1_1 : GatherDims S100000 S4096x1 S4096 where
  offsetDims := []
  collapsedSliceDims := [0]
  operandBatchingDims := []
  startIndicesBatchingDims := []
  startIndexMap := [0]
  indexVectorDim := 1
  sliceSizes := ![1]
  wf := gather_S100000_S4096x1_S4096_n_0_n_n_0_1_1_wf
def gather_S2000x128_S4096x1_S4096x128_1_0_n_n_0_1_1128 : GatherDims S2000x128 S4096x1 S4096x128 where
  offsetDims := [1]
  collapsedSliceDims := [0]
  operandBatchingDims := []
  startIndicesBatchingDims := []
  startIndexMap := [0]
  indexVectorDim := 1
  sliceSizes := ![1, 128]
  wf := gather_S2000x128_S4096x1_S4096x128_1_0_n_n_0_1_1128_wf
def gather_S2000_S4096x1_S4096_n_0_n_n_0_1_1 : GatherDims S2000 S4096x1 S4096 where
  offsetDims := []
  collapsedSliceDims := [0]
  operandBatchingDims := []
  startIndicesBatchingDims := []
  startIndexMap := [0]
  indexVectorDim := 1
  sliceSizes := ![1]
  wf := gather_S2000_S4096x1_S4096_n_0_n_n_0_1_1_wf

class Facts : Prop extends Facts₀ where

variable [Facts]
-- ==== Proof.LibBitmap.lean ====
/-
  Three general facts, over the library only.

  * A "membership bitmap": scattering one constant `o` into an array at a list of positions (a set-scatter, each update
    replacing the element it lands on, out-of-range positions dropped) leaves `o` exactly at the positions some update
    names and the old contents elsewhere (`Host.scatter_set_const`); for a rank-1 array indexed through an [n × 1] column
    of positions, position `j` is named when some entry of the column, read as a signed integer, is `j`
    (`Host.scatter_bitmap`).
  * `jnp.any` along an axis: a reduce by `or` from 0 is 1 at `j` exactly when some operand element that reduces into
    `j` is 1 (`Host.reduce_ori_eq_one_iff`).
  * Over the extended reals a 32-bit integer converted to a float and back is the integer, for EVERY word: the conversion
    to a real is exact, truncation of an integer-valued real is that integer, and it lies inside the clamp
    (`Ideal.fptosi_sitofp`).
-/
import Idealize.ShloMosaic.Lib.ReduceAll
import Idealize.ShloMosaic.Lib.StableHlo.Predicate
import Idealize.ShloMosaic.PureOps.Ideal

namespace Idealize.ShloMosaic

namespace IntOp

/-- A left fold by `or` over `i1` words comes out 1 exactly when it started at 1 or met a 1. -/
theorem foldl_ori_eq_one_iff {ι : Type} (f : ι → BitVec 1) :
    ∀ (l : List ι) (init : BitVec 1),
      l.foldl (fun r n => ori r (f n)) init = 1#1 ↔ init = 1#1 ∨ ∃ n ∈ l, f n = 1#1
  | [], init => by simp
  | a :: l, init => by
    rw [List.foldl_cons, foldl_ori_eq_one_iff f l, ori_eq_one]
    constructor
    · rintro ((h | h) | ⟨n, hn, h⟩)
      · exact .inl h
      · exact .inr ⟨a, List.mem_cons_self, h⟩
      · exact .inr ⟨n, List.mem_cons_of_mem _ hn, h⟩
    · rintro (h | ⟨n, hn, h⟩)
      · exact .inl (.inl h)
      · rcases List.mem_cons.1 hn with rfl | hn
        · exact .inl (.inr h)
        · exact .inr ⟨n, hn, h⟩

end IntOp

namespace Host

/-- `jnp.any` along the reduced axes: the reduce by `or` is 1 at `j` iff the initial value is 1 or some operand element
    that reduces into `j` is 1. -/
theorem reduce_ori_eq_one_iff {s t u : Shape} {axes : List (Fin s.rank)} (x : s.Idx → BitVec 1) (init : u.Idx → BitVec 1)
    (h : s.ReducesTo axes t) (hu : 0 < u.numel) (j : t.Idx) :
    Host.reduce IntOp.ori x init h hu j = 1#1 ↔ init (Shape.Idx.first hu) = 1#1 ∨ ∃ i : s.Idx, h.drop i = j ∧ x i = 1#1 := by
  rw [Host.reduce_eq_foldl, IntOp.foldl_ori_eq_one_iff x]
  refine or_congr Iff.rfl ⟨?_, ?_⟩
  · rintro ⟨i, hi, hx⟩
    rw [List.mem_filter] at hi
    exact ⟨i, by simpa using hi.2, hx⟩
  · rintro ⟨i, hi, hx⟩
    exact ⟨i, List.mem_filter.2 ⟨List.mem_map.2 ⟨s.rowMajor i, List.mem_finRange _, Equiv.symm_apply_apply _ _⟩, by simp [hi]⟩, hx⟩

/-- A left fold of steps each of which either sets ONE position (`g n = some i`) to the constant `o` or does nothing
    (`g n = none`): the result holds `o` at every position some step names, and the start value at the others. -/
theorem foldl_set_const {ι κ α : Type} (g : ι → Option κ) (o : α) (step : (κ → α) → ι → (κ → α))
    (hsome : ∀ (r : κ → α) (n : ι) (i : κ), g n = some i → ∀ i', (i' = i → step r n i' = o) ∧ (i' ≠ i → step r n i' = r i'))
    (hnone : ∀ (r : κ → α) (n : ι), g n = none → step r n = r) :
    ∀ (l : List ι) (x : κ → α) (j : κ),
      ((∃ n ∈ l, g n = some j) → l.foldl step x j = o) ∧ ((∀ n ∈ l, g n ≠ some j) → l.foldl step x j = x j)
  | [], x, j => ⟨fun ⟨_, hn, _⟩ => (nomatch hn), fun _ => rfl⟩
  | a :: l, x, j => by
    obtain ⟨ih1, ih2⟩ := foldl_set_const g o step hsome hnone l (step x a) j
    rw [List.foldl_cons]
    refine ⟨?_, ?_⟩
    · rintro ⟨n, hn, h⟩
      by_cases hl : ∃ n ∈ l, g n = some j
      · exact ih1 hl
      · rw [ih2 (fun n' hn' h' => hl ⟨n', hn', h'⟩)]
        rcases List.mem_cons.1 hn with rfl | hn
        · exact ((hsome x n j h) j).1 rfl
        · exact absurd ⟨n, hn, h⟩ hl
    · intro hall
      rw [ih2 (fun n hn => hall n (List.mem_cons_of_mem _ hn))]
      have ha := hall a List.mem_cons_self
      cases hga : g a with
      | none => rw [hnone x a hga]
      | some i => exact ((hsome x a i hga) j).2 (fun hji => ha (by rw [hga, hji]))

/-- A set-scatter (the body returns the update) of updates that are all the constant `o`: the result holds `o` at every
    in-range position some update lands on, and the operand's element everywhere else. -/
theorem scatter_set_const {s si u : Shape} {w : Nat} {α : Type} (d : ScatterDims s si u) (x : s.Idx → α) (idx : IVec si w)
    (upd : u.Idx → α) (o : α) (hupd : ∀ n, upd n = o) (j : s.Idx) :
    ((∃ n : u.Idx, d.resultIdx? n idx = some j) → Host.scatter d (fun _ b => b) x idx upd j = o) ∧
    ((∀ n : u.Idx, d.resultIdx? n idx ≠ some j) → Host.scatter d (fun _ b => b) x idx upd j = x j) := by
  have key := foldl_set_const (fun n : Fin u.numel => d.resultIdx? (u.rowMajor.symm n) idx) o
    (fun r n =>
      match d.resultIdx? (u.rowMajor.symm n) idx with
      | some i => fun i' => if i' = i then (fun _ b => b) (r i) (upd (u.rowMajor.symm n)) else r i'
      | none => r)
    (by
      intro r n i h i'
      simp only [h]
      exact ⟨fun e => by rw [if_pos e, hupd], fun e => by rw [if_neg e]⟩)
    (by
      intro r n h
      simp only [h])
    (List.finRange u.numel) x j
  refine ⟨fun ⟨n, h⟩ => key.1 ⟨u.rowMajor n, List.mem_finRange _, by simpa using h⟩, fun h => key.2 fun n _ => h _⟩

open StableHlo.Predicate in
/-- For a rank-1 operand, positions given as an [n × 1] column (the index vector on axis 1, the operand's one axis
    inserted: `x.at[idx].set(v)`), update `a` lands on position `j` exactly when its column entry, read signed, is `j`. -/
theorem resultIdx?_bitmap {N n w : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ w) (a : (⟨1, ![n]⟩ : Shape).Idx) (j : (⟨1, ![N]⟩ : Shape).Idx) :
    d.resultIdx? a idx = some j ↔ (idx (ixP (a 0))).toInt = ((j 0).val : Int) := by
  have hk : (0 : Fin 1) ∉ d.sKept := by simp [ScatterDims.sKept, Shape.kept, hiw]
  have hm : (0 : Fin 1) ∈ d.scatterDimsToOperandDims := by rw [hsd]; exact List.mem_singleton.mpr rfl
  have hw : d.window a 0 = 0 := by unfold ScatterDims.window; rw [dif_neg hk]
  have hs : d.start a idx 0 = (idx (ixP (a 0))).toInt := by
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have e : ∀ X : Fin 1, (a X).val = (a 0).val := fun X => by
        have hX : X = 0 := Subsingleton.elim _ _
        subst hX; rfl
      exact e _
    | ⟨1, _⟩ =>
      unfold ScatterDims.siIdx
      rw [dif_pos (by rw [hivd])]
      apply Fin.ext
      show List.idxOf (0 : Fin 1) d.scatterDimsToOperandDims = 0
      rw [hsd]; simp
  have hjN : (j 0).val < N := (j 0).isLt
  have hall : (∀ a' : Fin 1, 0 ≤ d.start a idx a' + (d.window a a' : Int) ∧
      d.start a idx a' + (d.window a a' : Int) < ((⟨1, ![N]⟩ : Shape).size a' : Int))
      ↔ (0 ≤ (idx (ixP (a 0))).toInt ∧ (idx (ixP (a 0))).toInt < (N : Int)) := by
    constructor
    · intro h; have := h 0; rw [hs, hw] at this; simpa using this
    · intro h a'; obtain rfl : a' = 0 := Subsingleton.elim _ _; rw [hs, hw]; simpa using h
  unfold ScatterDims.resultIdx?
  by_cases h : ∀ a' : Fin 1, 0 ≤ d.start a idx a' + (d.window a a' : Int) ∧
      d.start a idx a' + (d.window a a' : Int) < ((⟨1, ![N]⟩ : Shape).size a' : Int)
  · rw [dif_pos h]
    have h0 := (hall.1 h).1
    constructor
    · intro e
      have e1 := congrArg Fin.val (congrFun (Option.some.inj e) 0)
      have e2 : (d.start a idx 0 + (d.window a 0 : Int)).toNat = (j 0).val := e1
      rw [hs, hw] at e2
      omega
    · intro e
      congr 1
      funext a'
      obtain rfl : a' = 0 := Subsingleton.elim _ _
      apply Fin.ext
      show (d.start a idx 0 + (d.window a 0 : Int)).toNat = (j 0).val
      rw [hs, hw, e]; simp
  · rw [dif_neg h]
    constructor
    · intro e; exact absurd e (by simp)
    · intro e
      exact absurd (hall.2 ⟨by omega, by omega⟩) h

open StableHlo.Predicate in
/-- THE BITMAP: a constant `o` set-scattered into a rank-1 array at an [n × 1] column of positions holds `o` at `j` when
    some column entry, read signed, is `j`, and the operand's element when none is. -/
theorem scatter_bitmap {N n w : Nat} {α : Type} (d : ScatterDims ⟨1, ![N]⟩ ⟨2, ![n, 1]⟩ ⟨1, ![n]⟩)
    (hiw : d.insertedWindowDims = [0]) (hsd : d.scatterDimsToOperandDims = [0]) (hivd : d.indexVectorDim = 1)
    (x : (⟨1, ![N]⟩ : Shape).Idx → α) (idx : IVec ⟨2, ![n, 1]⟩ w) (upd : (⟨1, ![n]⟩ : Shape).Idx → α) (o : α)
    (hupd : ∀ k, upd k = o) (j : (⟨1, ![N]⟩ : Shape).Idx) :
    ((∃ a : Fin n, (idx (ixP a)).toInt = ((j 0).val : Int)) → Host.scatter d (fun _ b => b) x idx upd j = o) ∧
    ((∀ a : Fin n, (idx (ixP a)).toInt ≠ ((j 0).val : Int)) → Host.scatter d (fun _ b => b) x idx upd j = x j) := by
  obtain ⟨h1, h2⟩ := scatter_set_const d x idx upd o hupd j
  refine ⟨fun ⟨a, h⟩ => h1 ⟨Shape.Idx.ofFin a, (resultIdx?_bitmap d hiw hsd hivd idx _ j).2 (by simpa using h)⟩,
    fun h => h2 fun k hk => h (k 0) ((resultIdx?_bitmap d hiw hsd hivd idx k j).1 hk)⟩

end Host

namespace Ideal

/-- Over the extended reals a 32-bit integer survives the round trip through a float: exact conversion, then truncation
    of an integer-valued real inside the clamp. -/
theorem fptosi_sitofp (b : BitVec 32) : Ideal.fptosi 32 (((b.toInt : ℝ) : EReal)) = b := by
  unfold Ideal.fptosi
  have hc : Ideal.toIntClamped (-((2 ^ (32 - 1) : Nat) : Int)) (((2 ^ (32 - 1) : Nat) : Int) - 1) (((b.toInt : ℝ) : EReal)) = b.toInt := by
    show max _ (min _ (if (0 : ℝ) ≤ (b.toInt : ℝ) then ⌊(b.toInt : ℝ)⌋ else ⌈(b.toInt : ℝ)⌉)) = _
    rw [Int.floor_intCast, Int.ceil_intCast, ite_self]
    have h1 := BitVec.toInt_lt (x := b)
    have h2 := BitVec.le_toInt (x := b)
    norm_num at h1 h2 ⊢
    omega
  rw [hc, BitVec.ofInt_toInt]

end Ideal

end Idealize.ShloMosaic
-- ==== Proof.Spec.lean ====
/-
  The mathematics of the community message kernel, over plain arrays and coordinates.

  An event b (of 4096) belongs to a community; that community has a row of 128 member scores ms[b, ·], a row of 128 member
  nodes ng[b, ·], a member count mnum[b], and a flag use[b] saying whether it is among the active communities. Position p
  of the row is VALID when p < mnum[b] (a ragged prefix) and the community is active. The three results are

    messages[b, p, q] = ms[b, p] · msg[b, q]  where valid, else 0
    nodes[b, p]       = ng[b, p]              where valid, else -1
    times[b, p]       = ts[b]                 where valid, else 0.

  The kernel spells the mask differently: it folds the flag into the count (the count where active, else 0), carries the
  count through a float and back, and tests p against that; and it masks the score before the product instead of the
  product after it. Both spellings are the functions above: the float round trip is the identity on every 32-bit integer
  over the extended reals, a position is never below 0, and 0 · x = 0 for every extended real x.
-/
import Idealize.ShloMosaic.PureOps.Ideal
import Idealize.ShloMosaic.Lib.ValueIdx
import Idealize.ShloMosaic.Lib.StableHlo.Predicate
import proofs.«425022_j83992380440994_3_alg».proof.Proof.LibBitmap

noncomputable section

namespace Cert.Spec

open Idealize.ShloMosaic Idealize.ShloMosaic.ValueIdx

/-- Position p lies in the ragged prefix of an event whose community has mnum members and activity flag use. -/
def valid (use : BitVec 1) (mnum : BitVec 32) (p : Fin 128) : BitVec 1 :=
  IntOp.andi (IntOp.cmpi .slt (BitVec.ofNat 32 p.val) mnum) use

/-- A position is not below zero. -/
theorem slt_pos_zero (p : Fin 128) : IntOp.cmpi .slt (BitVec.ofNat 32 p.val) 0#32 = 0#1 := by
  have hp := p.isLt
  have h : ¬ (IntOp.cmpi .slt (BitVec.ofNat 32 p.val) 0#32 = 1#1) := by
    rw [StableHlo.Predicate.slt_iff_toNat (by rw [BitVec.toNat_ofNat]; omega) (by decide)]
    simp
  revert h
  generalize IntOp.cmpi .slt (BitVec.ofNat 32 p.val) 0#32 = v
  revert v; decide

/-- THE KERNEL'S MASK IS THE MASK: testing p against the count-where-active-else-0 carried through a float and back is
    testing p against the count and the flag. -/
theorem valid_of_roundtrip (use : BitVec 1) (mnum : BitVec 32) (p : Fin 128) :
    IntOp.cmpi .slt (BitVec.ofNat 32 p.val) (Ideal.fptosi 32 ((((Scalar.select use mnum 0#32).toInt : ℝ)) : EReal))
      = valid use mnum p := by
  rw [Ideal.fptosi_sitofp]
  unfold valid
  obtain rfl | rfl : use = 0#1 ∨ use = 1#1 := by revert use; decide
  · rw [show Scalar.select (0#1) mnum (0#32) = 0#32 from if_neg (by decide), slt_pos_zero]
    generalize IntOp.cmpi .slt (BitVec.ofNat 32 p.val) mnum = v
    revert v; decide
  · rw [show Scalar.select (1#1) mnum (0#32) = mnum from if_pos rfl]
    generalize IntOp.cmpi .slt (BitVec.ofNat 32 p.val) mnum = v
    revert v; decide

/-- Masking a factor before a product is masking the product: 0 · x = 0 on the extended reals, infinities included. -/
theorem select_mul (v : BitVec 1) (a x : EReal) : Scalar.select v a (0 : EReal) * x = Scalar.select v (a * x) 0 := by
  unfold Scalar.select
  split <;> simp

/-! ## The three results as functions of the arrays -/

variable (ms : (⟨2, ![4096, 128]⟩ : Shape).Idx → EReal) (msg : (⟨2, ![4096, 256]⟩ : Shape).Idx → EReal)
  (ng : (⟨2, ![4096, 128]⟩ : Shape).Idx → BitVec 32) (ts : (⟨1, ![4096]⟩ : Shape).Idx → EReal)
  (mnum : (⟨1, ![4096]⟩ : Shape).Idx → BitVec 32) (use : (⟨1, ![4096]⟩ : Shape).Idx → BitVec 1)

/-- The mask at event b, position p. -/
def validAt (b : Fin 4096) (p : Fin 128) : BitVec 1 := valid (use (ix1 b)) (mnum (ix1 b)) p

/-- messages[b, p, q]. -/
def messageAt (b : Fin 4096) (p : Fin 128) (q : Fin 256) : EReal :=
  Scalar.select (validAt mnum use b p) (ms (ix2 b p) * msg (ix2 b q)) 0

/-- nodes[b, p]. -/
def nodeAt (b : Fin 4096) (p : Fin 128) : BitVec 32 :=
  Scalar.select (validAt mnum use b p) (ng (ix2 b p)) 4294967295#32

/-- times[b, p]. -/
def timeAt (b : Fin 4096) (p : Fin 128) : EReal :=
  Scalar.select (validAt mnum use b p) (ts (ix1 b)) 0

/-- The message array. -/
def messages : (⟨3, ![4096, 128, 256]⟩ : Shape).Idx → EReal := fun i => messageAt ms msg mnum use (i 0) (i 1) (i 2)
/-- The updated-nodes array. -/
def nodes : (⟨2, ![4096, 128]⟩ : Shape).Idx → BitVec 32 := fun i => nodeAt ng mnum use (i 0) (i 1)
/-- The updated-times array. -/
def times : (⟨2, ![4096, 128]⟩ : Shape).Idx → EReal := fun i => timeAt ts mnum use (i 0) (i 1)

/-! ## The kernel's spelling: count and time packed side by side in one [4096, 2] float array

The kernel receives, per event, the pair (count where active else 0, as a float; time). It rebuilds the mask from the
first column and reads the time off the second. -/

variable (combo : (⟨2, ![4096, 2]⟩ : Shape).Idx → EReal)

/-- The kernel's mask at (b, p): p below the first column's entry, carried back to an integer. -/
def maskK (b : Fin 4096) (p : Fin 128) : BitVec 1 :=
  IntOp.cmpi .slt (BitVec.ofNat 32 p.val) (Ideal.fptosi 32 (combo (ix2 b (0 : Fin 2))))

/-- The kernel's message entry: the masked score times the message. -/
def messageKAt (b : Fin 4096) (p : Fin 128) (q : Fin 256) : EReal :=
  Scalar.select (maskK combo b p) (ms (ix2 b p)) (0 : EReal) * msg (ix2 b q)
/-- The kernel's node entry. -/
def nodeKAt (b : Fin 4096) (p : Fin 128) : BitVec 32 :=
  Scalar.select (maskK combo b p) (ng (ix2 b p)) 4294967295#32
/-- The kernel's time entry. -/
def timeKAt (b : Fin 4096) (p : Fin 128) : EReal :=
  Scalar.select (maskK combo b p) (combo (ix2 b (1 : Fin 2))) 0

/-- The kernel's message array. -/
def messagesK : (⟨3, ![4096, 128, 256]⟩ : Shape).Idx → EReal := fun i => messageKAt ms msg combo (i 0) (i 1) (i 2)
/-- The kernel's updated-nodes array. -/
def nodesK : (⟨2, ![4096, 128]⟩ : Shape).Idx → BitVec 32 := fun i => nodeKAt ng combo (i 0) (i 1)
/-- The kernel's updated-times array. -/
def timesK : (⟨2, ![4096, 128]⟩ : Shape).Idx → EReal := fun i => timeKAt combo (i 0) (i 1)

variable {ts mnum use combo}

/-- With the first column the count-where-active-else-0 as an exact real and the second the time, the kernel's mask is the
    mask. -/
theorem maskK_eq (hc0 : ∀ b : Fin 4096, combo (ix2 b (0 : Fin 2)) = (((Scalar.select (use (ix1 b)) (mnum (ix1 b)) 0#32).toInt : ℝ) : EReal))
    (b : Fin 4096) (p : Fin 128) : maskK combo b p = validAt mnum use b p := by
  unfold maskK validAt
  rw [hc0, valid_of_roundtrip]

/-- Then the kernel's three arrays are the three arrays. -/
theorem messagesK_eq (hc0 : ∀ b : Fin 4096, combo (ix2 b (0 : Fin 2)) = (((Scalar.select (use (ix1 b)) (mnum (ix1 b)) 0#32).toInt : ℝ) : EReal)) :
    messagesK ms msg combo = messages ms msg mnum use := by
  funext i
  obtain ⟨b, p, q, rfl⟩ : ∃ (b : Fin 4096) (p : Fin 128) (q : Fin 256), i = ix3 b p q := ⟨i 0, i 1, i 2, eq_ix3 i⟩
  show messageKAt ms msg combo b p q = messageAt ms msg mnum use b p q
  unfold messageKAt messageAt
  rw [maskK_eq hc0, select_mul]

theorem nodesK_eq (hc0 : ∀ b : Fin 4096, combo (ix2 b (0 : Fin 2)) = (((Scalar.select (use (ix1 b)) (mnum (ix1 b)) 0#32).toInt : ℝ) : EReal)) :
    nodesK ng combo = nodes ng mnum use := by
  funext i
  obtain ⟨b, p, rfl⟩ : ∃ (b : Fin 4096) (p : Fin 128), i = ix2 b p := ⟨i 0, i 1, eq_ix2 i⟩
  show nodeKAt ng combo b p = nodeAt ng mnum use b p
  unfold nodeKAt nodeAt
  rw [maskK_eq hc0]

theorem timesK_eq (hc0 : ∀ b : Fin 4096, combo (ix2 b (0 : Fin 2)) = (((Scalar.select (use (ix1 b)) (mnum (ix1 b)) 0#32).toInt : ℝ) : EReal))
    (hc1 : ∀ b : Fin 4096, combo (ix2 b (1 : Fin 2)) = ts (ix1 b)) :
    timesK combo = times ts mnum use := by
  funext i
  obtain ⟨b, p, rfl⟩ : ∃ (b : Fin 4096) (p : Fin 128), i = ix2 b p := ⟨i 0, i 1, eq_ix2 i⟩
  show timeKAt combo b p = timeAt ts mnum use b p
  unfold timeKAt timeAt
  rw [maskK_eq hc0, hc1]

end Cert.Spec

end
-- ==== Proof.KernelBlocks.lean ====
/-
  Blocks and rows. The launch runs the body at 32 points; point t reads rows [128 t, 128 t + 128) of the four input
  arrays (scores [4096, 128], the packed count/time [4096, 2], messages [4096, 256], nodes [4096, 128]) and writes the same
  rows of the three outputs. Here: the body's three stores at ONE entry, as functions of the entries of the input
  blocks in the same row (over the generated value leg's index-by-index form of each store); the printed index maps,
  decided over the grid; and row r of block t as row 128 t + r of each array.
-/
import proofs.«425022_j83992380440994_3_alg».proof.Proof.Gen.KernelIdeal.Value
import proofs.«425022_j83992380440994_3_alg».proof.Proof.Spec
import Idealize.ShloMosaic.PureOps.Ideal
import Idealize.ShloMosaic.PureOps.Ideal.Laws
import Idealize.ShloMosaic.Lib.ValueIdx

noncomputable section

namespace Cert.KernelBlocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-! ## The body at one entry, over variables -/

theorem hz2 : (![0, 0] : Fin 2 → Nat) = fun _ => 0 := funext fun a => by fin_cases a <;> rfl
theorem hz3 : (![0, 0, 0] : Fin 3 → Nat) = fun _ => 0 := funext fun a => by fin_cases a <;> rfl

/-- The body's mask at (r, p): p below the count column's entry of row r carried back to an integer. -/
theorem pay1_eq (P0 : Vec Ideal S128x1 .f32) :
    k0_pay1 P0 = cmpi .slt (iota .tc S128x128 32 [1] iota_S128x128_d1_w32)
      (broadcastTo S128x128 (fptosi (F := Ideal) (φ := .f32) 32 (shapeCast S128x1 P0 shapeCasts_S128x1_S128x1 : FVec Ideal S128x1 .f32)) broadcasts_S128x1_S128x128) := rfl

theorem pay1_apply (P0 : Vec Ideal S128x1 .f32) (r p : Fin 128) :
    k0_pay1 P0 (ix2 r p) = IntOp.cmpi .slt (BitVec.ofNat 32 p.val) (Ideal.fptosi 32 (P0 (ix2 r (0 : Fin 1)))) := by
  rw [pay1_eq]
  show IntOp.cmpi .slt (iota .tc S128x128 32 [1] iota_S128x128_d1_w32 (ix2 r p))
    (broadcastTo S128x128 (fptosi (F := Ideal) (φ := .f32) 32 (shapeCast S128x1 P0 shapeCasts_S128x1_S128x1 : FVec Ideal S128x1 .f32)) broadcasts_S128x1_S128x128 (ix2 r p)) = _
  rw [iota_single_apply,
    broadcastTo_apply _ broadcasts_S128x1_S128x128 (ix2 r p) (ix2 r (0 : Fin 1)) (fun a => match a with
      | ⟨0, _⟩ => by show r.val = (if (128 : Nat) = 1 then 0 else r.val); rw [if_neg (by decide)]
      | ⟨1, _⟩ => by show 0 = (if (1 : Nat) = 1 then 0 else p.val); rw [if_pos rfl]),
    shapeCast_self]
  rfl

/-- The count column of a [128, 2] block at row r is its entry (r, 0). -/
theorem ld_col0 (x1 : Vec Ideal S128x2 .f32) (r : Fin 128) : View.ld x1 r0_1 (ix2 r (0 : Fin 1)) = x1 (ix2 r (0 : Fin 2)) := by
  show x1 (r0_1.emb (ix2 r (0 : Fin 1))) = _
  congr 1
  funext a; apply Fin.ext
  match a with
  | ⟨0, _⟩ => show 0 + 1 * r.val = r.val; omega
  | ⟨1, _⟩ => show 0 + 1 * 0 = 0; rfl

/-- The time column of a [128, 2] block at row r is its entry (r, 1). -/
theorem ld_col1 (x1 : Vec Ideal S128x2 .f32) (r : Fin 128) : View.ld x1 r0_2 (ix2 r (0 : Fin 1)) = x1 (ix2 r (1 : Fin 2)) := by
  show x1 (r0_2.emb (ix2 r (0 : Fin 1))) = _
  congr 1
  funext a; apply Fin.ext
  match a with
  | ⟨0, _⟩ => show 0 + 1 * r.val = r.val; omega
  | ⟨1, _⟩ => show 1 + 1 * 0 = 1; rfl

/-- The message block's entry (r, p, q). -/
theorem out4_apply (x0 : Vec Ideal S128x128 .f32) (x1 : Vec Ideal S128x2 .f32) (x2 : Vec Ideal S128x256 .f32)
    (x3 : Vec Ideal S128x128 .i32) (r p : Fin 128) (q : Fin 256) :
    out0_4 x0 x1 x2 x3 (ix3 r p q)
      = Scalar.select (IntOp.cmpi .slt (BitVec.ofNat 32 p.val) (Ideal.fptosi 32 (x1 (ix2 r (0 : Fin 2))))) (x0 (ix2 r p)) (0 : EReal)
          * x2 (ix2 r q) := by
  unfold out0_4
  rw [canon4_eq]
  have i0 : ix4_0 (ix3 r p q) = ix2 r p := funext fun a => Fin.ext (by match a with | ⟨0, _⟩ => rfl | ⟨1, _⟩ => rfl)
  have i1 : ix4_1 (ix3 r p q) = ix2 r p := funext fun a => Fin.ext (by match a with | ⟨0, _⟩ => rfl | ⟨1, _⟩ => rfl)
  have i2 : ix4_2 (ix3 r p q) = ix2 r q := funext fun a => Fin.ext (by match a with | ⟨0, _⟩ => rfl | ⟨1, _⟩ => rfl)
  show FloatOps.mulf (F := Ideal) (Scalar.select (k0_pay1 (View.ld x1 r0_1) (ix4_0 (ix3 r p q))) (View.ld x0 r0_0 (ix4_1 (ix3 r p q)))
    (Scalar.ofBits (F := Ideal) .f32 0x00000000#32)) (View.ld x2 r0_3 (ix4_2 (ix3 r p q))) = _
  rw [i0, i1, i2, pay1_apply, ld_col0, View.ld_unit_zero (S := S128x128) hz2, View.ld_unit_zero (S := S128x256) hz2]
  show Scalar.select _ _ (Ideal.ofBits .f32 0x00000000#32) * _ = _
  rw [Ideal.ofBits_zero_f32]

/-- The nodes block's entry (r, p). -/
theorem out5_apply (x0 : Vec Ideal S128x128 .f32) (x1 : Vec Ideal S128x2 .f32) (x2 : Vec Ideal S128x256 .f32)
    (x3 : Vec Ideal S128x128 .i32) (r p : Fin 128) :
    out0_5 x0 x1 x2 x3 (ix2 r p)
      = Scalar.select (IntOp.cmpi .slt (BitVec.ofNat 32 p.val) (Ideal.fptosi 32 (x1 (ix2 r (0 : Fin 2))))) (x3 (ix2 r p)) 4294967295#32 := by
  unfold out0_5
  rw [canon5_eq]
  have i0 : ix5_0 (ix2 r p) = ix2 r p := funext fun a => Fin.ext (by match a with | ⟨0, _⟩ => rfl | ⟨1, _⟩ => rfl)
  have i1 : ix5_1 (ix2 r p) = ix2 r p := funext fun a => Fin.ext (by match a with | ⟨0, _⟩ => rfl | ⟨1, _⟩ => rfl)
  show Scalar.select (k0_pay1 (View.ld x1 r0_1) (ix5_0 (ix2 r p))) (View.ld x3 r0_0 (ix5_1 (ix2 r p))) 4294967295#32 = _
  rw [i0, i1, pay1_apply, ld_col0, View.ld_unit_zero (S := S128x128) hz2]

/-- The times block's entry (r, p). -/
theorem out6_apply (x0 : Vec Ideal S128x128 .f32) (x1 : Vec Ideal S128x2 .f32) (x2 : Vec Ideal S128x256 .f32)
    (x3 : Vec Ideal S128x128 .i32) (r p : Fin 128) :
    out0_6 x0 x1 x2 x3 (ix2 r p)
      = Scalar.select (IntOp.cmpi .slt (BitVec.ofNat 32 p.val) (Ideal.fptosi 32 (x1 (ix2 r (0 : Fin 2))))) (x1 (ix2 r (1 : Fin 2))) (0 : EReal) := by
  unfold out0_6
  rw [canon6_eq]
  have i0 : ix6_0 (ix2 r p) = ix2 r p := funext fun a => Fin.ext (by match a with | ⟨0, _⟩ => rfl | ⟨1, _⟩ => rfl)
  have i1 : ix6_1 (ix2 r p) = ix2 r (0 : Fin 1) := funext fun a => Fin.ext (by match a with | ⟨0, _⟩ => rfl | ⟨1, _⟩ => rfl)
  show Scalar.select (k0_pay1 (View.ld x1 r0_1) (ix6_0 (ix2 r p))) (View.ld x1 r0_2 (ix6_1 (ix2 r p))) (Scalar.ofBits (F := Ideal) .f32 0x00000000#32) = _
  rw [i0, i1, pay1_apply, ld_col0, ld_col1]
  show Scalar.select _ _ (Ideal.ofBits .f32 0x00000000#32) = _
  rw [Ideal.ofBits_zero_f32]

/-! ## Blocks and rows -/

/-- The printed index maps over the grid: every window's block index is the point on the row axis and 0 elsewhere. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row r of block t as a row of the arrays. -/
def rowOf (t : Fin cfg0.N) (r : Fin 128) : Fin 4096 := ⟨t.val * 128 + r.val, by
  have ht : t.val < 32 := lt_of_lt_of_eq t.isLt N_0
  have hr := r.isLt
  omega⟩

variable (m : (ℓ : Loc nD τ sig) → Buf (Elt Ideal) ℓ) (ρ : Dev nD → PrngReg)

/-- The four arrays as the launch finds them, at their literal types. -/
abbrev msA (c : Dev nD) : (⟨2, ![4096, 128]⟩ : Shape).Idx → EReal := V m c main_v31
abbrev comboA (c : Dev nD) : (⟨2, ![4096, 2]⟩ : Shape).Idx → EReal := V m c main_v50
abbrev msgA (c : Dev nD) : (⟨2, ![4096, 256]⟩ : Shape).Idx → EReal := V m c main_arg0
abbrev ngA (c : Dev nD) : (⟨2, ![4096, 128]⟩ : Shape).Idx → BitVec 32 := V m c main_v45

theorem emb0 (t : Fin cfg0.N) (r p : Fin 128) : ((cfg0.win 0).blk t).view.emb (ix2 r p) = ix2 (rowOf t r) p := by
  obtain ⟨e00, e01, -⟩ := idx_facts t
  funext a; apply Fin.ext
  match a with
  | ⟨0, _⟩ => show win0_0.index t (0 : Fin 2) * 128 + 1 * r.val = t.val * 128 + r.val; omega
  | ⟨1, _⟩ => show win0_0.index t (1 : Fin 2) * 128 + 1 * p.val = p.val; omega

theorem emb1 (t : Fin cfg0.N) (r : Fin 128) (k : Fin 2) : ((cfg0.win 1).blk t).view.emb (ix2 r k) = ix2 (rowOf t r) k := by
  obtain ⟨-, -, e10, e11, -⟩ := idx_facts t
  funext a; apply Fin.ext
  match a with
  | ⟨0, _⟩ => show win0_1.index t (0 : Fin 2) * 128 + 1 * r.val = t.val * 128 + r.val; omega
  | ⟨1, _⟩ => show win0_1.index t (1 : Fin 2) * 2 + 1 * k.val = k.val; omega

theorem emb2 (t : Fin cfg0.N) (r : Fin 128) (q : Fin 256) : ((cfg0.win 2).blk t).view.emb (ix2 r q) = ix2 (rowOf t r) q := by
  obtain ⟨-, -, -, -, e20, e21, -⟩ := idx_facts t
  funext a; apply Fin.ext
  match a with
  | ⟨0, _⟩ => show win0_2.index t (0 : Fin 2) * 128 + 1 * r.val = t.val * 128 + r.val; omega
  | ⟨1, _⟩ => show win0_2.index t (1 : Fin 2) * 256 + 1 * q.val = q.val; omega

theorem emb3 (t : Fin cfg0.N) (r p : Fin 128) : ((cfg0.win 3).blk t).view.emb (ix2 r p) = ix2 (rowOf t r) p := by
  obtain ⟨-, -, -, -, -, -, e30, e31, -⟩ := idx_facts t
  funext a; apply Fin.ext
  match a with
  | ⟨0, _⟩ => show win0_3.index t (0 : Fin 2) * 128 + 1 * r.val = t.val * 128 + r.val; omega
  | ⟨1, _⟩ => show win0_3.index t (1 : Fin 2) * 128 + 1 * p.val = p.val; omega

theorem emb4 (t : Fin cfg0.N) (r p : Fin 128) (q : Fin 256) : ((cfg0.win 4).blk t).view.emb (ix3 r p q) = ix3 (rowOf t r) p q := by
  obtain ⟨-, -, -, -, -, -, -, -, e40, e41, e42, -⟩ := idx_facts t
  funext a; apply Fin.ext
  match a with
  | ⟨0, _⟩ => show win0_4.index t (0 : Fin 3) * 128 + 1 * r.val = t.val * 128 + r.val; omega
  | ⟨1, _⟩ => show win0_4.index t (1 : Fin 3) * 128 + 1 * p.val = p.val; omega
  | ⟨2, _⟩ => show win0_4.index t (2 : Fin 3) * 256 + 1 * q.val = q.val; omega

theorem emb5 (t : Fin cfg0.N) (r p : Fin 128) : ((cfg0.win 5).blk t).view.emb (ix2 r p) = ix2 (rowOf t r) p := by
  obtain ⟨-, -, -, -, -, -, -, -, -, -, -, e50, e51, -⟩ := idx_facts t
  funext a; apply Fin.ext
  match a with
  | ⟨0, _⟩ => show win0_5.index t (0 : Fin 2) * 128 + 1 * r.val = t.val * 128 + r.val; omega
  | ⟨1, _⟩ => show win0_5.index t (1 : Fin 2) * 128 + 1 * p.val = p.val; omega

theorem emb6 (t : Fin cfg0.N) (r p : Fin 128) : ((cfg0.win 6).blk t).view.emb (ix2 r p) = ix2 (rowOf t r) p := by
  obtain ⟨-, -, -, -, -, -, -, -, -, -, -, -, -, e60, e61⟩ := idx_facts t
  funext a; apply Fin.ext
  match a with
  | ⟨0, _⟩ => show win0_6.index t (0 : Fin 2) * 128 + 1 * r.val = t.val * 128 + r.val; omega
  | ⟨1, _⟩ => show win0_6.index t (1 : Fin 2) * 128 + 1 * p.val = p.val; omega

/-! ## An input block's entry is the array's entry at its row -/

theorem blk0_apply (c : Dev nD) (t : Fin cfg0.N) (r p : Fin 128) :
    (iblk m c 0 t : Vec Ideal S128x128 .f32) (ix2 r p) = msA m c (ix2 (rowOf t r) p) := by
  show msA m c (((cfg0.win 0).blk t).view.emb (ix2 r p)) = _
  rw [emb0]

theorem blk1_apply (c : Dev nD) (t : Fin cfg0.N) (r : Fin 128) (k : Fin 2) :
    (iblk m c 1 t : Vec Ideal S128x2 .f32) (ix2 r k) = comboA m c (ix2 (rowOf t r) k) := by
  show comboA m c (((cfg0.win 1).blk t).view.emb (ix2 r k)) = _
  rw [emb1]

theorem blk2_apply (c : Dev nD) (t : Fin cfg0.N) (r : Fin 128) (q : Fin 256) :
    (iblk m c 2 t : Vec Ideal S128x256 .f32) (ix2 r q) = msgA m c (ix2 (rowOf t r) q) := by
  show msgA m c (((cfg0.win 2).blk t).view.emb (ix2 r q)) = _
  rw [emb2]

theorem blk3_apply (c : Dev nD) (t : Fin cfg0.N) (r p : Fin 128) :
    (iblk m c 3 t : Vec Ideal S128x128 .i32) (ix2 r p) = ngA m c (ix2 (rowOf t r) p) := by
  show ngA m c (((cfg0.win 3).blk t).view.emb (ix2 r p)) = _
  rw [emb3]

end Cert.KernelBlocks

end
-- ==== Proof.KernelValue.lean ====
/-
  From blocks to arrays. What each of the 32 points writes back is its block of ONE whole-array function (the
  specification's kernel spelling over the arrays the launch reads); the blocks cover the arrays; so the arrays end
  holding those functions.
-/
import proofs.«425022_j83992380440994_3_alg».proof.Proof.KernelBlocks

noncomputable section

namespace Cert.KernelValue

open Cert.KernelIdeal Cert.KernelIdeal.Gen Cert.KernelIdeal.Value Idealize.ShloMosaic Idealize.ShloMosaic.TcCoe Idealize.SL.Sem
open Idealize.ShloMosaic.ValueIdx Cert.KernelBlocks
open Idealize.ShloMosaic.Pipeline (Dat)

variable (m : (ℓ : Loc nD τ sig) → Buf (Elt Ideal) ℓ) (ρ : Dev nD → PrngReg)

/-! ## What each point writes back is its block of the whole-array function -/

/-- An output block read through its window is the array read at the block's rows, for ANY array. -/
theorem read4_apply (G : (⟨3, ![4096, 128, 256]⟩ : Shape).Idx → EReal) (t : Fin cfg0.N) (r p : Fin 128) (q : Fin 256) :
    ((cfg0.win 4).blk t).view.read (Elt Ideal) G (ix3 r p q) = G (ix3 (rowOf t r) p q) := by
  show G (((cfg0.win 4).blk t).view.emb (ix3 r p q)) = _
  rw [emb4]

theorem read5_apply (G : (⟨2, ![4096, 128]⟩ : Shape).Idx → BitVec 32) (t : Fin cfg0.N) (r p : Fin 128) :
    ((cfg0.win 5).blk t).view.read (Elt Ideal) G (ix2 r p) = G (ix2 (rowOf t r) p) := by
  show G (((cfg0.win 5).blk t).view.emb (ix2 r p)) = _
  rw [emb5]

theorem read6_apply (G : (⟨2, ![4096, 128]⟩ : Shape).Idx → EReal) (t : Fin cfg0.N) (r p : Fin 128) :
    ((cfg0.win 6).blk t).view.read (Elt Ideal) G (ix2 r p) = G (ix2 (rowOf t r) p) := by
  show G (((cfg0.win 6).blk t).view.emb (ix2 r p)) = _
  rw [emb6]

theorem flushed4_eq (c : Dev nD) (t : Fin cfg0.N) :
    (dats m 0 c).flushed 4 t
      = ((cfg0.win 4).blk t).view.read (Elt Ideal) (Spec.messagesK (msA m c) (msgA m c) (comboA m c)) := by
  rw [flushed4]
  funext y
  obtain ⟨r, p, q, rfl⟩ : ∃ (r p : Fin 128) (q : Fin 256), y = ix3 r p q := ⟨y 0, y 1, y 2, eq_ix3 y⟩
  refine ((out4_apply (iblk m c 0 t) (iblk m c 1 t) (iblk m c 2 t) (iblk m c 3 t) r p q).trans ?_).trans
    (read4_apply _ t r p q).symm
  rw [blk0_apply, blk1_apply, blk2_apply]
  rfl

theorem flushed5_eq (c : Dev nD) (t : Fin cfg0.N) :
    (dats m 0 c).flushed 5 t
      = ((cfg0.win 5).blk t).view.read (Elt Ideal) (Spec.nodesK (ngA m c) (comboA m c)) := by
  rw [flushed5]
  funext y
  obtain ⟨r, p, rfl⟩ : ∃ (r p : Fin 128), y = ix2 r p := ⟨y 0, y 1, eq_ix2 y⟩
  refine ((out5_apply (iblk m c 0 t) (iblk m c 1 t) (iblk m c 2 t) (iblk m c 3 t) r p).trans ?_).trans
    (read5_apply _ t r p).symm
  rw [blk1_apply, blk3_apply]
  rfl

theorem flushed6_eq (c : Dev nD) (t : Fin cfg0.N) :
    (dats m 0 c).flushed 6 t
      = ((cfg0.win 6).blk t).view.read (Elt Ideal) (Spec.timesK (comboA m c)) := by
  rw [flushed6]
  funext y
  obtain ⟨r, p, rfl⟩ : ∃ (r p : Fin 128), y = ix2 r p := ⟨y 0, y 1, eq_ix2 y⟩
  refine ((out6_apply (iblk m c 0 t) (iblk m c 1 t) (iblk m c 2 t) (iblk m c 3 t) r p).trans ?_).trans
    (read6_apply _ t r p).symm
  rw [blk1_apply, blk1_apply]
  rfl

/-! ## The blocks cover the arrays -/

theorem mem_blk4 (t : Fin cfg0.N) (i : S4096x128x256.Idx) :
    i ∈ ((cfg0.win 4).blk t).view.set ↔ ∀ a : Fin 3, win0_4.index t a * S128x128x256.size a ≤ (i a).val
      ∧ (i a).val < win0_4.index t a * S128x128x256.size a + S128x128x256.size a := by
  show i ∈ ((View.whole main_v51_0).slice (win0_4.rect t)).set ↔ _
  rw [View.set_slice_whole, Rect.mem_set_unit]
  exact Iff.rfl

theorem mem_blk5 (t : Fin cfg0.N) (i : S4096x128.Idx) :
    i ∈ ((cfg0.win 5).blk t).view.set ↔ ∀ a : Fin 2, win0_5.index t a * S128x128.size a ≤ (i a).val
      ∧ (i a).val < win0_5.index t a * S128x128.size a + S128x128.size a := by
  show i ∈ ((View.whole main_v51_1).slice (win0_5.rect t)).set ↔ _
  rw [View.set_slice_whole, Rect.mem_set_unit]
  exact Iff.rfl

theorem mem_blk6 (t : Fin cfg0.N) (i : S4096x128.Idx) :
    i ∈ ((cfg0.win 6).blk t).view.set ↔ ∀ a : Fin 2, win0_6.index t a * S128x128.size a ≤ (i a).val
      ∧ (i a).val < win0_6.index t a * S128x128.size a + S128x128.size a := by
  show i ∈ ((View.whole main_v51_2).slice (win0_6.rect t)).set ↔ _
  rw [View.set_slice_whole, Rect.mem_set_unit]
  exact Iff.rfl

/-- The point whose block holds row b. -/
def pointOf (b : Nat) (hb : b < 4096) : Fin cfg0.N := ⟨b / 128, by rw [show cfg0.N = 32 from N_0]; omega⟩

theorem cover4 (i : S4096x128x256.Idx) : ∃ t : Fin cfg0.N, (cfg0.win 4).flush t = true ∧ i ∈ ((cfg0.win 4).blk t).view.set := by
  have h0 : (i 0).val < 4096 := (i 0).isLt
  have h1 : (i 1).val < 128 := (i 1).isLt
  have h2 : (i 2).val < 256 := (i 2).isLt
  refine ⟨pointOf (i 0).val h0, flush0_4 _, ?_⟩
  obtain ⟨-, -, -, -, -, -, -, -, e40, e41, e42, -⟩ := idx_facts (pointOf (i 0).val h0)
  have ht : (pointOf (i 0).val h0).val = (i 0).val / 128 := rfl
  rw [mem_blk4]
  intro a
  match a with
  | ⟨0, _⟩ => show win0_4.index _ (0 : Fin 3) * 128 ≤ (i 0).val ∧ (i 0).val < win0_4.index _ (0 : Fin 3) * 128 + 128; omega
  | ⟨1, _⟩ => show win0_4.index _ (1 : Fin 3) * 128 ≤ (i 1).val ∧ (i 1).val < win0_4.index _ (1 : Fin 3) * 128 + 128; omega
  | ⟨2, _⟩ => show win0_4.index _ (2 : Fin 3) * 256 ≤ (i 2).val ∧ (i 2).val < win0_4.index _ (2 : Fin 3) * 256 + 256; omega

theorem cover5 (i : S4096x128.Idx) : ∃ t : Fin cfg0.N, (cfg0.win 5).flush t = true ∧ i ∈ ((cfg0.win 5).blk t).view.set := by
  have h0 : (i 0).val < 4096 := (i 0).isLt
  have h1 : (i 1).val < 128 := (i 1).isLt
  refine ⟨pointOf (i 0).val h0, flush0_5 _, ?_⟩
  obtain ⟨-, -, -, -, -, -, -, -, -, -, -, e50, e51, -⟩ := idx_facts (pointOf (i 0).val h0)
  have ht : (pointOf (i 0).val h0).val = (i 0).val / 128 := rfl
  rw [mem_blk5]
  intro a
  match a with
  | ⟨0, _⟩ => show win0_5.index _ (0 : Fin 2) * 128 ≤ (i 0).val ∧ (i 0).val < win0_5.index _ (0 : Fin 2) * 128 + 128; omega
  | ⟨1, _⟩ => show win0_5.index _ (1 : Fin 2) * 128 ≤ (i 1).val ∧ (i 1).val < win0_5.index _ (1 : Fin 2) * 128 + 128; omega

theorem cover6 (i : S4096x128.Idx) : ∃ t : Fin cfg0.N, (cfg0.win 6).flush t = true ∧ i ∈ ((cfg0.win 6).blk t).view.set := by
  have h0 : (i 0).val < 4096 := (i 0).isLt
  have h1 : (i 1).val < 128 := (i 1).isLt
  refine ⟨pointOf (i 0).val h0, flush0_6 _, ?_⟩
  obtain ⟨-, -, -, -, -, -, -, -, -, -, -, -, -, e60, e61⟩ := idx_facts (pointOf (i 0).val h0)
  have ht : (pointOf (i 0).val h0).val = (i 0).val / 128 := rfl
  rw [mem_blk6]
  intro a
  match a with
  | ⟨0, _⟩ => show win0_6.index _ (0 : Fin 2) * 128 ≤ (i 0).val ∧ (i 0).val < win0_6.index _ (0 : Fin 2) * 128 + 128; omega
  | ⟨1, _⟩ => show win0_6.index _ (1 : Fin 2) * 128 ≤ (i 1).val ∧ (i 1).val < win0_6.index _ (1 : Fin 2) * 128 + 128; omega

/-! ## The arrays after the run -/

theorem final4 (c : Dev nD) : (dats m 0 c).arrAt 4 cfg0.N = Spec.messagesK (msA m c) (msgA m c) (comboA m c) :=
  (dats m 0 c).arrAt_eq_of_cover 4 (Spec.messagesK (msA m c) (msgA m c) (comboA m c)) (fun t _ => flushed4_eq m c t) cover4

theorem final5 (c : Dev nD) : (dats m 0 c).arrAt 5 cfg0.N = Spec.nodesK (ngA m c) (comboA m c) :=
  (dats m 0 c).arrAt_eq_of_cover 5 (Spec.nodesK (ngA m c) (comboA m c)) (fun t _ => flushed5_eq m c t) cover5

theorem final6 (c : Dev nD) : (dats m 0 c).arrAt 6 cfg0.N = Spec.timesK (comboA m c) :=
  (dats m 0 c).arrAt_eq_of_cover 6 (Spec.timesK (comboA m c)) (fun t _ => flushed6_eq m c t) cover6

end Cert.KernelValue

end
-- ==== Proof.KernelHost.lean ====
/-
  What the kernel's host lines leave in the four arrays its launch reads, as functions of the arguments.

  cid = node2community[nodes] is each event's community; ROW(cid) is the column of start indices jnp makes of it (a
  negative index wrapped once by the table's length 2000). The scores, counts and nodes of the event's community are
  gathers of the three tables at ROW(cid). The activity flag is computed through a BITMAP: 1 scattered into 2000 zeros
  at the (wrapped) active community indices, the bitmap gathered at ROW(cid), the result compared with 0. The count
  where active (else 0), converted to a float, and the time are laid side by side in a [4096, 2] array.
-/
import proofs.«425022_j83992380440994_3_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal

noncomputable section

namespace Cert.KernelHost

open Cert.KernelIdeal Cert.KernelIdeal.Gen Idealize.ShloMosaic Idealize.ShloMosaic.TcCoe Idealize.SL.Sem
open Idealize.ShloMosaic.StableHlo Idealize.ShloMosaic.ValueIdx

section Terms

variable {F : FTy → Type} [FloatOps F]

/-- Each event's community: node2community gathered at the (wrapped) event nodes. -/
def cidK (x3 : (⟨S4096, .i32⟩ : BufTy).Contents (Elt F)) (x4 : (⟨S100000, .i32⟩ : BufTy).Contents (Elt F)) :
    (⟨S4096, .i32⟩ : BufTy).Contents (Elt F) :=
  Host.gather gather_S100000_S4096x1_S4096_n_0_n_n_0_1_1 x4 (broadcastInDim S4096x1 ![0] bcast_S4096_S4096x1_0
    (select (cmpi .slt x3 (broadcastInDim S4096 ![] bcast_S_S4096 (constantI S_ 32 0#32)))
      (addi x3 (broadcastInDim S4096 ![] bcast_S_S4096 (constantI S_ 32 100000#32))) x3))

/-- The column of start indices into a table of 2000 rows: a negative index wrapped once. -/
def rowK (cid : (⟨S4096, .i32⟩ : BufTy).Contents (Elt F)) : (⟨S4096x1, .i32⟩ : BufTy).Contents (Elt F) :=
  broadcastInDim S4096x1 ![0] bcast_S4096_S4096x1_0
    (select (cmpi .slt cid (broadcastInDim S4096 ![] bcast_S_S4096 (constantI S_ 32 0#32)))
      (addi cid (broadcastInDim S4096 ![] bcast_S_S4096 (constantI S_ 32 2000#32))) cid)

/-- The bitmap of active communities: 1 set at each (wrapped, in-range) active index, over 2000 zeros. -/
def activeK (x7 : (⟨S1500, .i32⟩ : BufTy).Contents (Elt F)) : (⟨S2000, .i32⟩ : BufTy).Contents (Elt F) :=
  Host.scatter scatter_S2000_S1500x1_S1500_n_0_0_1 (fun _ b => b)
    (broadcastInDim S2000 ![] bcast_S_S2000 (constantI S_ 32 0#32))
    (broadcastInDim S1500x1 ![0] bcast_S1500_S1500x1_0
      (select (cmpi .slt x7 (broadcastInDim S1500 ![] bcast_S_S1500 (constantI S_ 32 0#32)))
        (addi x7 (broadcastInDim S1500 ![] bcast_S_S1500 (constantI S_ 32 2000#32))) x7))
    (broadcastInDim S1500 ![] bcast_S_S1500 (constantI S_ 32 1#32))

/-- The activity flag: the bitmap at the event's community is positive. -/
def useK (x3 : (⟨S4096, .i32⟩ : BufTy).Contents (Elt F)) (x4 : (⟨S100000, .i32⟩ : BufTy).Contents (Elt F))
    (x7 : (⟨S1500, .i32⟩ : BufTy).Contents (Elt F)) : (⟨S4096, .i1⟩ : BufTy).Contents (Elt F) :=
  cmpi .sgt (Host.gather gather_S2000_S4096x1_S4096_n_0_n_n_0_1_1 (activeK x7) (rowK (cidK x3 x4)))
    (broadcastInDim S4096 ![] bcast_S_S4096 (constantI S_ 32 0#32))

/-- The scores of the event's community. -/
def msK (x1 : (⟨S2000x128, .f32⟩ : BufTy).Contents (Elt F)) (x3 : (⟨S4096, .i32⟩ : BufTy).Contents (Elt F))
    (x4 : (⟨S100000, .i32⟩ : BufTy).Contents (Elt F)) : (⟨S4096x128, .f32⟩ : BufTy).Contents (Elt F) :=
  Host.gather gather_S2000x128_S4096x1_S4096x128_1_0_n_n_0_1_1128 x1 (rowK (cidK x3 x4))

/-- The member count of the event's community. -/
def mnumK (x3 : (⟨S4096, .i32⟩ : BufTy).Contents (Elt F)) (x4 : (⟨S100000, .i32⟩ : BufTy).Contents (Elt F))
    (x6 : (⟨S2000, .i32⟩ : BufTy).Contents (Elt F)) : (⟨S4096, .i32⟩ : BufTy).Contents (Elt F) :=
  Host.gather gather_S2000_S4096x1_S4096_n_0_n_n_0_1_1 x6 (rowK (cidK x3 x4))

/-- The member nodes of the event's community. -/
def ngK (x3 : (⟨S4096, .i32⟩ : BufTy).Contents (Elt F)) (x4 : (⟨S100000, .i32⟩ : BufTy).Contents (Elt F))
    (x5 : (⟨S2000x128, .i32⟩ : BufTy).Contents (Elt F)) : (⟨S4096x128, .i32⟩ : BufTy).Contents (Elt F) :=
  Host.gather gather_S2000x128_S4096x1_S4096x128_1_0_n_n_0_1_1128 x5 (rowK (cidK x3 x4))

/-- Count-where-active-else-0 as a float, and the time, side by side. -/
def comboK (use : (⟨S4096, .i1⟩ : BufTy).Contents (Elt F)) (mnum : (⟨S4096, .i32⟩ : BufTy).Contents (Elt F))
    (zero : (⟨S_, .i32⟩ : BufTy).Contents (Elt F)) (ts : (⟨S4096, .f32⟩ : BufTy).Contents (Elt F)) :
    (⟨S4096x2, .f32⟩ : BufTy).Contents (Elt F) :=
  concatenate S4096x2 1
    [⟨S4096x1, broadcastInDim S4096x1 ![0] bcast_S4096_S4096x1_0
        (sitofp .f32 (select use mnum (broadcastInDim S4096 ![] bcast_S_S4096 (id zero))))⟩,
      ⟨S4096x1, broadcastInDim S4096x1 ![0] bcast_S4096_S4096x1_0 ts⟩]
    concatenates_S4096x1_S4096x1_S4096x2_d1

variable (m : (ℓ : Loc nD τ sig) → Buf (Elt F) ℓ)

/-- The device's buffers after the first stretch of host lines (everything up to the outlined select). -/
abbrev W0 (c : Dev nD) : Valuation τ sig (Elt F) := StableHlo.after hostOps0 (fun b => m (c, b))

/-- The region-entry contents are the three stretches run one after the other. -/
theorem V_split (c : Dev nD) (b : Ref sig .tc) :
    V m c b = StableHlo.after hostOps0_2 (StableHlo.after hostOps0_1 (W0 m c)) b := by
  dsimp only [Gen.V, W0]
  rw [List.flatten_cons, List.flatten_cons, List.flatten_cons, List.flatten_nil, List.append_nil,
    StableHlo.after_append, StableHlo.after_append]

set_option maxHeartbeats 4000000 in
set_option maxRecDepth 8192 in
theorem W0_v24 (c : Dev nD) : (W0 m c main_v24 : (⟨S4096, .i1⟩ : BufTy).Contents (Elt F))
    = useK (m ((c : Thread nD τ).loc main_arg3)) (m ((c : Thread nD τ).loc main_arg4)) (m ((c : Thread nD τ).loc main_arg7)) := by
  dsimp only [W0]
  after_results_simp
  rfl

set_option maxHeartbeats 4000000 in
set_option maxRecDepth 8192 in
theorem W0_v38 (c : Dev nD) : (W0 m c main_v38 : (⟨S4096, .i32⟩ : BufTy).Contents (Elt F))
    = mnumK (m ((c : Thread nD τ).loc main_arg3)) (m ((c : Thread nD τ).loc main_arg4)) (m ((c : Thread nD τ).loc main_arg6)) := by
  dsimp only [W0]
  after_results_simp
  rfl

set_option maxHeartbeats 4000000 in
set_option maxRecDepth 8192 in
theorem W0_c14 (c : Dev nD) : (W0 m c main_c_14 : (⟨S_, .i32⟩ : BufTy).Contents (Elt F)) = constantI S_ 32 0#32 := by
  dsimp only [W0]
  after_results_simp

set_option maxHeartbeats 4000000 in
set_option maxRecDepth 8192 in
theorem W0_arg2 (c : Dev nD) : (W0 m c main_arg2 : (⟨S4096, .f32⟩ : BufTy).Contents (Elt F)) = m ((c : Thread nD τ).loc main_arg2) := by
  dsimp only [W0]
  after_results_simp

set_option maxHeartbeats 4000000 in
set_option maxRecDepth 8192 in
theorem W0_v31 (c : Dev nD) : (W0 m c main_v31 : (⟨S4096x128, .f32⟩ : BufTy).Contents (Elt F))
    = msK (m ((c : Thread nD τ).loc main_arg1)) (m ((c : Thread nD τ).loc main_arg3)) (m ((c : Thread nD τ).loc main_arg4)) := by
  dsimp only [W0]
  after_results_simp
  rfl

set_option maxHeartbeats 4000000 in
set_option maxRecDepth 8192 in
theorem W0_v45 (c : Dev nD) : (W0 m c main_v45 : (⟨S4096x128, .i32⟩ : BufTy).Contents (Elt F))
    = ngK (m ((c : Thread nD τ).loc main_arg3)) (m ((c : Thread nD τ).loc main_arg4)) (m ((c : Thread nD τ).loc main_arg5)) := by
  dsimp only [W0]
  after_results_simp
  rfl

/-- The scores array the launch reads. -/
theorem V_v31 (c : Dev nD) : (V m c main_v31 : (⟨S4096x128, .f32⟩ : BufTy).Contents (Elt F))
    = msK (m ((c : Thread nD τ).loc main_arg1)) (m ((c : Thread nD τ).loc main_arg3)) (m ((c : Thread nD τ).loc main_arg4)) := by
  rw [V_split, ← W0_v31]
  generalize W0 m c = W
  after_results

/-- The nodes array the launch reads. -/
theorem V_v45 (c : Dev nD) : (V m c main_v45 : (⟨S4096x128, .i32⟩ : BufTy).Contents (Elt F))
    = ngK (m ((c : Thread nD τ).loc main_arg3)) (m ((c : Thread nD τ).loc main_arg4)) (m ((c : Thread nD τ).loc main_arg5)) := by
  rw [V_split, ← W0_v45]
  generalize W0 m c = W
  after_results

/-- The packed array the launch reads. -/
theorem V_v50 (c : Dev nD) : (V m c main_v50 : (⟨S4096x2, .f32⟩ : BufTy).Contents (Elt F))
    = comboK (useK (m ((c : Thread nD τ).loc main_arg3)) (m ((c : Thread nD τ).loc main_arg4)) (m ((c : Thread nD τ).loc main_arg7)))
        (mnumK (m ((c : Thread nD τ).loc main_arg3)) (m ((c : Thread nD τ).loc main_arg4)) (m ((c : Thread nD τ).loc main_arg6)))
        (constantI S_ 32 0#32) (m ((c : Thread nD τ).loc main_arg2)) := by
  rw [V_split, ← W0_v24 m c, ← W0_v38 m c, ← W0_c14 m c, ← W0_arg2 m c]
  generalize W0 m c = W
  after_results
  simp only [TRef.ofBuf, TRef.toBuf, cast_eq]
  rfl

end Terms

end Cert.KernelHost

end
-- ==== Proof.Bridge.lean ====
/-
  The kernel's host terms against the reference's.

  The community of each event, and the scores, counts and nodes gathered at it, are the SAME terms in both programs. The
  activity flag is not: the reference asks "is cid[b] equal to some active index?" by comparing against all 1500 of
  them; the kernel looks cid[b] up in a bitmap of the active indices. When every community index is in [0, 2000) — the
  node2community table's entries, hence every cid[b], and the active indices — no index is wrapped, clamped or dropped,
  the bitmap holds 1 exactly at the active indices, and the two flags are one.
-/
import proofs.«425022_j83992380440994_3_alg».proof.Proof.KernelHost
import proofs.«425022_j83992380440994_3_alg».proof.Proof.Gen.ReferenceIdeal.Read
import proofs.«425022_j83992380440994_3_alg».proof.Proof.LibBitmap
import Idealize.ShloMosaic.Lib.StableHlo.Predicate
import Idealize.ShloMosaic.Lib.ValueIdx

noncomputable section

namespace Cert.Bridge

open Idealize.ShloMosaic Idealize.ShloMosaic.ValueIdx Idealize.ShloMosaic.StableHlo.Predicate
open Cert.KernelHost

/-! ## Words -/

/-- A word that is not negative is not wrapped. -/
theorem wrap_of_nonneg (w n : BitVec 32) (h : 0 ≤ w.toInt) :
    Scalar.select (IntOp.cmpi .slt w 0#32) (IntOp.addi w n) w = w := by
  have h0 : IntOp.cmpi .slt w 0#32 = 0#1 := by
    unfold IntOp.cmpi
    have hs : w.slt 0#32 = false := by
      simp only [BitVec.slt, BitVec.toInt_zero, decide_eq_false_iff_not, not_lt]
      exact h
    show BitVec.ofBool (w.slt 0#32) = 0#1
    rw [hs]; rfl
  rw [h0]
  exact if_neg (by decide)

/-- Two one-bit words that are 1 together are equal. -/
theorem bit_ext {u v : BitVec 1} (h : u = 1#1 ↔ v = 1#1) : u = v := by
  revert h; revert u v; decide

theorem ofFin_eq_ix1 {n : Nat} (k : Fin n) : Shape.Idx.ofFin k = ix1 k := by
  funext a; match a with | ⟨0, _⟩ => rfl

/-! ## The shared terms -/

variable (x1 : (⟨⟨2, ![2000, 128]⟩, .f32⟩ : BufTy).Contents (Elt Ideal)) (x3 : (⟨⟨1, ![4096]⟩, .i32⟩ : BufTy).Contents (Elt Ideal))
  (x4 : (⟨⟨1, ![100000]⟩, .i32⟩ : BufTy).Contents (Elt Ideal)) (x5 : (⟨⟨2, ![2000, 128]⟩, .i32⟩ : BufTy).Contents (Elt Ideal))
  (x6 : (⟨⟨1, ![2000]⟩, .i32⟩ : BufTy).Contents (Elt Ideal)) (x7 : (⟨⟨1, ![1500]⟩, .i32⟩ : BufTy).Contents (Elt Ideal))

theorem cid_eq : cidK (F := Ideal) x3 x4 = Cert.ReferenceIdeal.Read.val_main_v6 (F := Ideal) x3 x4 := rfl
theorem ms_eq : msK (F := Ideal) x1 x3 x4 = Cert.ReferenceIdeal.Read.val_main_v19 (F := Ideal) x1 x3 x4 := rfl
theorem mnum_eq : mnumK (F := Ideal) x3 x4 x6 = Cert.ReferenceIdeal.Read.val_main_v26 (F := Ideal) x3 x4 x6 := rfl
theorem ng_eq : ngK (F := Ideal) x3 x4 x5 = Cert.ReferenceIdeal.Read.val_main_v49 (F := Ideal) x3 x4 x5 := rfl

/-! ## The reference's flag: some active index is the event's community -/

open Cert.ReferenceIdeal Cert.ReferenceIdeal.Read Cert.ReferenceIdeal.Facts₀ in
theorem ref_use_iff (b : Fin 4096) :
    val_main_v12 (F := Ideal) x3 x4 x7 (Shape.Idx.ofFin b) = 1#1
      ↔ ∃ a : Fin 1500, val_main_v6 (F := Ideal) x3 x4 (Shape.Idx.ofFin b) = x7 (Shape.Idx.ofFin a) := by
  unfold val_main_v12
  rw [Host.reduce_ori_eq_one_iff]
  have hdrop : ∀ i : S1500x4096.Idx, reducesTo_S1500x4096_S4096_d0.drop i = Shape.Idx.ofFin b ↔ (i 1).val = b.val := by
    intro i
    have hv : (reducesTo_S1500x4096_S4096_d0.drop i 0 : Nat) = i 1 := Shape.ReducesTo.drop_apply_val_of_eq _ i 0 1
    constructor
    · intro e; rw [e] at hv; exact hv.symm
    · intro e; funext k; have hk : k = 0 := Subsingleton.elim _ _; subst hk; exact Fin.ext (by rw [hv, e]; rfl)
  have hread : ∀ i : S1500x4096.Idx, val_main_v11 (F := Ideal) x3 x4 x7 i = 1#1
      ↔ val_main_v6 (F := Ideal) x3 x4 (Shape.Idx.ofFin (i 1)) = x7 (Shape.Idx.ofFin (i 0)) := by
    intro i
    rw [val_main_v11_apply, val_main_v9_apply, val_main_v7_apply, val_main_v10_apply, val_main_v8_apply, cmpi_eq_iff]
    have e1 : idx_main_v7 (idx_main_v9 i) = Shape.Idx.ofFin (i 1) := funext fun k => Fin.ext (by match k with | ⟨0, _⟩ => rfl)
    have e2 : idx_main_v8 (idx_main_v10 i) = Shape.Idx.ofFin (i 0) := funext fun k => Fin.ext (by match k with | ⟨0, _⟩ => rfl)
    rw [e1, e2]
    exact Iff.rfl
  constructor
  · rintro (h | ⟨i, hi, hx⟩)
    · exact absurd (show (0#1 : BitVec 1) = 1#1 from h) (by decide)
    · have hb : i 1 = b := Fin.ext ((hdrop i).1 hi)
      exact ⟨i 0, by rw [← hb]; exact (hread i).1 hx⟩
  · rintro ⟨a, h⟩
    refine .inr ⟨ij a b, (hdrop _).2 rfl, (hread _).2 ?_⟩
    exact h

/-! ## The kernel's flag under the ranges -/

section Ranges

variable (hn : ∀ k : (⟨1, ![100000]⟩ : Shape).Idx, 0 ≤ (x4 k).toInt ∧ (x4 k).toInt < 2000)
  (hc : ∀ a : (⟨1, ![1500]⟩ : Shape).Idx, 0 ≤ (x7 a).toInt ∧ (x7 a).toInt < 2000)

include hn in
/-- Every event's community is a table entry, so it is in range. -/
theorem cid_range (b : Fin 4096) :
    0 ≤ (cidK (F := Ideal) x3 x4 (Shape.Idx.ofFin b)).toInt ∧ (cidK (F := Ideal) x3 x4 (Shape.Idx.ofFin b)).toInt < 2000 := by
  unfold cidK
  rw [gather_take Cert.KernelIdeal.gather_S100000_S4096x1_S4096_n_0_n_n_0_1_1 rfl rfl rfl rfl x4 _ b (by decide)]
  exact hn _

include hn in
/-- The start index made of an in-range community is the community. -/
theorem row_apply (b : Fin 4096) :
    rowK (F := Ideal) (cidK (F := Ideal) x3 x4) (ixP b) = cidK (F := Ideal) x3 x4 (Shape.Idx.ofFin b) := by
  unfold rowK
  rw [bcast_col1]
  exact wrap_of_nonneg _ 2000#32 (cid_range x3 x4 hn b).1

include hc in
/-- The bitmap: 1 at j when some active index is j, else 0. -/
theorem active_apply (j : Fin 2000) :
    ((∃ a : Fin 1500, (x7 (Shape.Idx.ofFin a)).toInt = (j.val : Int)) → activeK (F := Ideal) x7 (Shape.Idx.ofFin j) = 1#32) ∧
    ((∀ a : Fin 1500, (x7 (Shape.Idx.ofFin a)).toInt ≠ (j.val : Int)) → activeK (F := Ideal) x7 (Shape.Idx.ofFin j) = 0#32) := by
  have hcol : ∀ a : Fin 1500,
      (broadcastInDim Cert.KernelIdeal.S1500x1 ![0] Cert.KernelIdeal.Facts₀.bcast_S1500_S1500x1_0
        (select (cmpi .slt x7 (broadcastInDim Cert.KernelIdeal.S1500 ![] Cert.KernelIdeal.Facts₀.bcast_S_S1500 (constantI Cert.KernelIdeal.S_ 32 0#32)))
          (addi x7 (broadcastInDim Cert.KernelIdeal.S1500 ![] Cert.KernelIdeal.Facts₀.bcast_S_S1500 (constantI Cert.KernelIdeal.S_ 32 2000#32))) x7)) (ixP a)
        = x7 (Shape.Idx.ofFin a) := by
    intro a
    rw [bcast_col1]
    exact wrap_of_nonneg _ 2000#32 (hc _).1
  obtain ⟨h1, h2⟩ := Host.scatter_bitmap Cert.KernelIdeal.scatter_S2000_S1500x1_S1500_n_0_0_1 rfl rfl rfl
    (broadcastInDim Cert.KernelIdeal.S2000 ![] Cert.KernelIdeal.Facts₀.bcast_S_S2000 (constantI Cert.KernelIdeal.S_ 32 0#32))
    (broadcastInDim Cert.KernelIdeal.S1500x1 ![0] Cert.KernelIdeal.Facts₀.bcast_S1500_S1500x1_0
      (select (cmpi .slt x7 (broadcastInDim Cert.KernelIdeal.S1500 ![] Cert.KernelIdeal.Facts₀.bcast_S_S1500 (constantI Cert.KernelIdeal.S_ 32 0#32)))
        (addi x7 (broadcastInDim Cert.KernelIdeal.S1500 ![] Cert.KernelIdeal.Facts₀.bcast_S_S1500 (constantI Cert.KernelIdeal.S_ 32 2000#32))) x7))
    (broadcastInDim Cert.KernelIdeal.S1500 ![] Cert.KernelIdeal.Facts₀.bcast_S_S1500 (constantI Cert.KernelIdeal.S_ 32 1#32)) 1#32 (fun _ => rfl)
    (Shape.Idx.ofFin j)
  refine ⟨fun ⟨a, ha⟩ => h1 ⟨a, by rw [hcol a]; exact ha⟩, fun hne => ?_⟩
  exact (h2 fun a => by rw [hcol a]; exact hne a).trans rfl

include hn hc in
/-- THE KERNEL'S FLAG: some active index is the event's community. -/
theorem kernel_use_iff (b : Fin 4096) :
    useK (F := Ideal) x3 x4 x7 (Shape.Idx.ofFin b) = 1#1
      ↔ ∃ a : Fin 1500, cidK (F := Ideal) x3 x4 (Shape.Idx.ofFin b) = x7 (Shape.Idx.ofFin a) := by
  obtain ⟨hlo, hhi⟩ := cid_range x3 x4 hn b
  have hrowb := row_apply x3 x4 hn b
  generalize cidK (F := Ideal) x3 x4 (Shape.Idx.ofFin b) = w at hlo hhi hrowb ⊢
  have hj : w.toInt.toNat < 2000 := by omega
  have hg : Host.gather Cert.KernelIdeal.gather_S2000_S4096x1_S4096_n_0_n_n_0_1_1 (activeK (F := Ideal) x7)
      (rowK (F := Ideal) (cidK (F := Ideal) x3 x4)) (Shape.Idx.ofFin b)
      = activeK (F := Ideal) x7 (Shape.Idx.ofFin (⟨w.toInt.toNat, hj⟩ : Fin 2000)) := by
    rw [gather_take Cert.KernelIdeal.gather_S2000_S4096x1_S4096_n_0_n_n_0_1_1 rfl rfl rfl rfl _ _ b (by decide)]
    refine congrArg (fun k : Fin 2000 => activeK (F := Ideal) x7 (Shape.Idx.ofFin k)) (Fin.ext ?_)
    show min (rowK (F := Ideal) (cidK (F := Ideal) x3 x4) (ixP b)).toInt.toNat (2000 - 1) = w.toInt.toNat
    rw [hrowb]
    omega
  obtain ⟨h1, h2⟩ := active_apply x7 hc (⟨w.toInt.toNat, hj⟩ : Fin 2000)
  have huse : useK (F := Ideal) x3 x4 x7 (Shape.Idx.ofFin b)
      = IntOp.cmpi .sgt (activeK (F := Ideal) x7 (Shape.Idx.ofFin (⟨w.toInt.toNat, hj⟩ : Fin 2000))) 0#32 := by
    rw [← hg]; rfl
  rw [huse]
  by_cases hex : ∃ a : Fin 1500, (x7 (Shape.Idx.ofFin a)).toInt = ((⟨w.toInt.toNat, hj⟩ : Fin 2000).val : Int)
  · rw [h1 hex]
    refine ⟨fun _ => ?_, fun _ => by decide⟩
    obtain ⟨a, ha⟩ := hex
    exact ⟨a, BitVec.eq_of_toInt_eq (by rw [ha]; show w.toInt = ((w.toInt.toNat : Nat) : Int); omega)⟩
  · rw [h2 (fun a ha => hex ⟨a, ha⟩)]
    refine ⟨fun h => absurd h (by decide), fun ⟨a, ha⟩ => absurd ⟨a, ?_⟩ hex⟩
    show (x7 (Shape.Idx.ofFin a)).toInt = ((w.toInt.toNat : Nat) : Int)
    rw [← ha]; omega

include hn hc in
/-- Under the ranges the kernel's activity flag is the reference's. -/
theorem use_eq : useK (F := Ideal) x3 x4 x7 = Cert.ReferenceIdeal.Read.val_main_v12 (F := Ideal) x3 x4 x7 := by
  funext j
  obtain ⟨b, rfl⟩ : ∃ b : Fin 4096, j = Shape.Idx.ofFin b := ⟨j 0, by funext a; match a with | ⟨0, _⟩ => rfl⟩
  exact bit_ext ((kernel_use_iff x3 x4 x7 hn hc b).trans (ref_use_iff x3 x4 x7 b).symm)

end Ranges

end Cert.Bridge

end
-- ==== Proof.Combo.lean ====
/-
  The packed [4096, 2] array read at its two columns: column 0 of row b is the count-where-active-else-0 of event b as an
  exact real (the conversion of a 32-bit integer to a float is exact over the extended reals), column 1 its time.
-/
import proofs.«425022_j83992380440994_3_alg».proof.Proof.KernelHost

noncomputable section

namespace Cert.Combo

open Cert.KernelIdeal Idealize.ShloMosaic Idealize.ShloMosaic.ValueIdx Cert.KernelHost

variable (use : (⟨S4096, .i1⟩ : BufTy).Contents (Elt Ideal)) (mnum : (⟨S4096, .i32⟩ : BufTy).Contents (Elt Ideal))
  (zero : (⟨S_, .i32⟩ : BufTy).Contents (Elt Ideal)) (ts : (⟨S4096, .f32⟩ : BufTy).Contents (Elt Ideal))

theorem col0 (b : Fin 4096) :
    comboK (F := Ideal) use mnum zero ts (ix2 b (0 : Fin 2))
      = (((Scalar.select (use (ix1 b)) (mnum (ix1 b)) (zero ix0)).toInt : ℝ) : EReal) := by
  unfold comboK
  refine (concatenate_pair_apply_left (t := S4096x2) (s₁ := S4096x1) (s₂ := S4096x1) (1 : Fin 2) _ _ Facts₀.concatenates_S4096x1_S4096x1_S4096x2_d1 (ix2 b (0 : Fin 2)) rfl
    (ix2 b (0 : Fin 1)) (fun a => by match a with | ⟨0, _⟩ => rfl | ⟨1, _⟩ => rfl)).trans ?_
  refine (broadcastInDim_apply _ Facts₀.bcast_S4096_S4096x1_0 _ (ix2 b (0 : Fin 1)) (ix1 b) (fun a => match a with
    | ⟨0, _⟩ => by show b.val = if (4096 : Nat) = 1 then 0 else b.val; rw [if_neg (by decide)])).trans ?_
  have hz : (broadcastInDim S4096 ![] Facts₀.bcast_S_S4096 (id zero)) (ix1 b) = zero ix0 :=
    broadcastInDim_apply _ Facts₀.bcast_S_S4096 _ (ix1 b) ix0 (fun a => a.elim0)
  show (((Scalar.select (use (ix1 b)) (mnum (ix1 b))
    ((broadcastInDim S4096 ![] Facts₀.bcast_S_S4096 (id zero)) (ix1 b))).toInt : ℝ) : EReal) = _
  rw [hz]

theorem col1 (b : Fin 4096) :
    comboK (F := Ideal) use mnum zero ts (ix2 b (1 : Fin 2)) = ts (ix1 b) := by
  unfold comboK
  refine (concatenate_pair_apply_right (t := S4096x2) (s₁ := S4096x1) (s₂ := S4096x1) (1 : Fin 2) _ _ Facts₀.concatenates_S4096x1_S4096x1_S4096x2_d1 (ix2 b (1 : Fin 2)) rfl rfl
    (ix2 b (0 : Fin 1)) (fun a => by
      match a with
      | ⟨0, _⟩ => intro _; rfl
      | ⟨1, _⟩ => intro h; exact absurd rfl h) rfl).trans ?_
  exact broadcastInDim_apply _ Facts₀.bcast_S4096_S4096x1_0 _ (ix2 b (0 : Fin 1)) (ix1 b) (fun a => match a with
    | ⟨0, _⟩ => by show b.val = if (4096 : Nat) = 1 then 0 else b.val; rw [if_neg (by decide)])

end Cert.Combo

end
-- ==== Proof.PreRanges.lean ====
/-
  The precondition read back. Besides the finiteness of the float inputs it says, as two jnp.all over integer compares,
  that every entry of node2community and every entry of community_index lies in [0, 2000): a community index. Only
  those two facts are used by the proof; the finiteness conjuncts are not (over the extended reals 0 · x = 0 for every
  x, so masking before or after the product agrees even at an infinity).
-/
import proofs.«425022_j83992380440994_3_alg».proof.Pre_finite_inputs
import Idealize.ShloMosaic.Lib.ReduceAll
import Idealize.ShloMosaic.Lib.ValueIdx
import Idealize.ShloMosaic.Lib.StableHlo.Predicate
import Idealize.ShloMosaic.PureOps.Ideal

noncomputable section

namespace Cert.PreRanges

open Idealize.ShloMosaic Cert.Pre_finite_inputs

/-- A word compares at least 0, signed, when its value is not negative. -/
theorem sge_zero_iff (a : BitVec 32) : IntOp.cmpi .sge a 0#32 = 1#1 ↔ 0 ≤ a.toInt := by
  unfold IntOp.cmpi
  show BitVec.ofBool ((0#32 : BitVec 32).sle a) = 1#1 ↔ _
  rw [StableHlo.Predicate.ofBool_eq_one_iff]
  simp only [BitVec.sle, BitVec.toInt_zero, decide_eq_true_eq]

/-- A word compares below 2000, signed, when its value is below 2000. -/
theorem slt_2000_iff (a : BitVec 32) : IntOp.cmpi .slt a 2000#32 = 1#1 ↔ a.toInt < 2000 := by
  unfold IntOp.cmpi
  show BitVec.ofBool (a.slt 2000#32) = 1#1 ↔ _
  rw [StableHlo.Predicate.ofBool_eq_one_iff]
  have h2000 : (2000#32 : BitVec 32).toInt = 2000 := by decide
  simp only [BitVec.slt, h2000, decide_eq_true_eq]

instance : Subsingleton S_.Idx := ⟨fun _ _ => funext fun d => d.elim0⟩

variable [Facts]

/-- The two ranges the precondition states. -/
theorem ranges_of_pre (x0 : FVec Ideal S4096x256 .f32) (x1 : FVec Ideal S2000x128 .f32) (x2 : FVec Ideal S4096 .f32)
    (x3 : IVec S4096 32) (x4 : IVec S100000 32) (x5 : IVec S2000x128 32) (x6 : IVec S2000 32) (x7 : IVec S1500 32)
    (h : fn (F := Ideal) x0 x1 x2 x3 x4 x5 x6 x7 = fun _ => 1#1) :
    (∀ k : S100000.Idx, 0 ≤ (x4 k).toInt ∧ (x4 k).toInt < 2000) ∧ (∀ a : S1500.Idx, 0 ≤ (x7 a).toInt ∧ (x7 a).toInt < 2000) := by
  have e : fn (F := Ideal) x0 x1 x2 x3 x4 x5 x6 x7 ValueIdx.ix0 = 1#1 := congrFun h _
  unfold fn fn_part1 at e
  dsimp only at e
  obtain ⟨e20, e26⟩ := IntOp.andi_eq_one.1 (show IntOp.andi _ _ = 1#1 from e)
  obtain ⟨-, e19⟩ := IntOp.andi_eq_one.1 (show IntOp.andi _ _ = 1#1 from e20)
  refine ⟨fun k => ?_, fun a => ?_⟩
  · have hk := Host.reduce_andi_all _ _ _ _ _ e19 k
    obtain ⟨g1, g2⟩ := IntOp.andi_eq_one.1 (show IntOp.andi _ _ = 1#1 from hk)
    exact ⟨(sge_zero_iff _).1 (show IntOp.cmpi .sge (x4 k) 0#32 = 1#1 from g1),
      (slt_2000_iff _).1 (show IntOp.cmpi .slt (x4 k) 2000#32 = 1#1 from g2)⟩
  · have ha := Host.reduce_andi_all _ _ _ _ _ e26 a
    obtain ⟨g1, g2⟩ := IntOp.andi_eq_one.1 (show IntOp.andi _ _ = 1#1 from ha)
    exact ⟨(sge_zero_iff _).1 (show IntOp.cmpi .sge (x7 a) 0#32 = 1#1 from g1),
      (slt_2000_iff _).1 (show IntOp.cmpi .slt (x7 a) 2000#32 = 1#1 from g2)⟩

end Cert.PreRanges

end
-- ==== Proof.RefIsSpec.lean ====
/-
  The reference's three results are the specification's arrays, index by index, over the reference's own gathered rows:
  the scores, counts and nodes of each event's community, and its flag "the community is among the active ones".
  Nothing here opens a gather or the flag's reduction: they enter as whole arrays.
-/
import proofs.«425022_j83992380440994_3_alg».proof.Proof.Gen.ReferenceIdeal.Read
import proofs.«425022_j83992380440994_3_alg».proof.Proof.Spec
import Idealize.ShloMosaic.PureOps.Ideal.Laws

noncomputable section

namespace Cert.RefSpec

open Cert.ReferenceIdeal Cert.ReferenceIdeal.Read Idealize.ShloMosaic Idealize.ShloMosaic.ValueIdx

variable (x0 : (⟨S4096x256, .f32⟩ : BufTy).Contents (Elt Ideal)) (x1 : (⟨S2000x128, .f32⟩ : BufTy).Contents (Elt Ideal))
  (x2 : (⟨S4096, .f32⟩ : BufTy).Contents (Elt Ideal)) (x3 : (⟨S4096, .i32⟩ : BufTy).Contents (Elt Ideal))
  (x4 : (⟨S100000, .i32⟩ : BufTy).Contents (Elt Ideal)) (x5 : (⟨S2000x128, .i32⟩ : BufTy).Contents (Elt Ideal))
  (x6 : (⟨S2000, .i32⟩ : BufTy).Contents (Elt Ideal)) (x7 : (⟨S1500, .i32⟩ : BufTy).Contents (Elt Ideal))

/-- The reference's mask at (b, p): p below the community's count, and the community active. -/
theorem mask_apply (b : Fin 4096) (p : Fin 128) :
    val_main_v35 (F := Ideal) x3 x4 x6 x7 (ix2 b p)
      = Spec.valid (val_main_v12 (F := Ideal) x3 x4 x7 (ix1 b)) (val_main_v26 (F := Ideal) x3 x4 x6 (ix1 b)) p := by
  rw [val_main_v35_apply, val_main_v32_apply, val_main_v30_apply, val_main_v28_apply, val_main_v27_apply,
    val_main_v31_apply, val_main_v29_apply, val_main_v34_apply, val_main_v33_apply]
  have e1 : idx_main_v29 (idx_main_v31 (ix2 b p)) = ix1 b :=
    funext fun a => Fin.ext (by match a with | ⟨0, _⟩ => rfl)
  have e2 : idx_main_v33 (idx_main_v34 (ix2 b p)) = ix1 b :=
    funext fun a => Fin.ext (by match a with | ⟨0, _⟩ => rfl)
  rw [e1, e2]
  rfl

/-- The first result is the message array. -/
theorem messages_eq :
    val_main_v42 (F := Ideal) x0 x1 x3 x4 x6 x7
      = Spec.messages (val_main_v19 (F := Ideal) x1 x3 x4) x0 (val_main_v26 (F := Ideal) x3 x4 x6) (val_main_v12 (F := Ideal) x3 x4 x7) := by
  funext i
  obtain ⟨b, p, q, rfl⟩ : ∃ (b : Fin 4096) (p : Fin 128) (q : Fin 256), i = ix3 b p q := ⟨i 0, i 1, i 2, eq_ix3 i⟩
  rw [val_main_v42_apply, val_main_call0_v1_apply, val_main_v36_apply, val_main_v41_apply, val_main_v39_apply,
    val_main_v37_apply, val_main_v40_apply, val_main_v38_apply, val_main_call0_v2_apply, val_main_call0_v0_apply,
    val_main_cst_apply]
  have e0 : idx_main_v36 (idx_main_call0_v1 (ix3 b p q)) = ix2 b p :=
    funext fun a => Fin.ext (by match a with | ⟨0, _⟩ => rfl | ⟨1, _⟩ => rfl)
  have e1 : idx_main_v37 (idx_main_v39 (ix3 b p q)) = ix2 b p :=
    funext fun a => Fin.ext (by match a with | ⟨0, _⟩ => rfl | ⟨1, _⟩ => rfl)
  have e2 : idx_main_v38 (idx_main_v40 (ix3 b p q)) = ix2 b q :=
    funext fun a => Fin.ext (by match a with | ⟨0, _⟩ => rfl | ⟨1, _⟩ => rfl)
  rw [e0, e1, e2, mask_apply, Ideal.ofBits_def, Ideal.ofBits_zero_f32]
  rfl

/-- The second result is the updated-nodes array. -/
theorem nodes_eq :
    val_main_v50 (F := Ideal) x3 x4 x5 x6 x7
      = Spec.nodes (val_main_v49 (F := Ideal) x3 x4 x5) (val_main_v26 (F := Ideal) x3 x4 x6) (val_main_v12 (F := Ideal) x3 x4 x7) := by
  funext i
  obtain ⟨b, p, rfl⟩ : ∃ (b : Fin 4096) (p : Fin 128), i = ix2 b p := ⟨i 0, i 1, eq_ix2 i⟩
  rw [val_main_v50_apply, val_main_call1_v1_apply, val_main_call1_v0_apply, val_main_c_8_apply, mask_apply]
  rfl

/-- The third result is the updated-times array. -/
theorem times_eq :
    val_main_v52 (F := Ideal) x2 x3 x4 x6 x7
      = Spec.times x2 (val_main_v26 (F := Ideal) x3 x4 x6) (val_main_v12 (F := Ideal) x3 x4 x7) := by
  funext i
  obtain ⟨b, p, rfl⟩ : ∃ (b : Fin 4096) (p : Fin 128), i = ix2 b p := ⟨i 0, i 1, eq_ix2 i⟩
  rw [val_main_v52_apply, val_main_call2_v1_apply, val_main_v51_apply, val_main_call2_v2_apply, val_main_call2_v0_apply,
    val_main_cst_9_apply, mask_apply]
  have e1 : idx_main_v51 (idx_main_call2_v1 (ix2 b p)) = ix1 b :=
    funext fun a => Fin.ext (by match a with | ⟨0, _⟩ => rfl)
  rw [e1, Ideal.ofBits_def, Ideal.ofBits_zero_f32]
  rfl

end Cert.RefSpec

end
-- ==== Proof.lean ====
/-
  The certificate of the community message kernel against its jnp reference, over the extended reals.

  Both programs compute, for each of 4096 events, the row of 128 member scores, member nodes and the member count of the
  event's community, and a flag saying whether that community is among 1500 active ones; position p of the row is valid
  when p is below the count and the flag is set; the results are the outer product score x message, the nodes and the
  event time, each kept where valid and replaced by 0, -1 and 0 elsewhere.

  The two programs differ in three places, and the proof is those three bridges:
    * the flag: the reference compares the community with every active index; the kernel looks it up in a bitmap made by
      scattering 1 at the active indices. They agree when the communities and the active indices are community indices,
      in [0, 2000) — the precondition's two integer conjuncts (Proof/PreRanges, Proof/Bridge over Proof/LibBitmap);
    * the mask: the kernel folds the flag into the count, passes it through a float and back, and compares; exact on
      every 32-bit integer over the extended reals (Proof/Spec);
    * the product: the kernel masks the score before multiplying, the reference the product after; 0 · x = 0 (Proof/Spec).
  The kernel's arrays after its run are read block by block (Proof/KernelBlocks, Proof/KernelValue over the generated
  value leg), its host lines up to the launch as terms (Proof/KernelHost, Proof/Combo), the reference's results index by
  index over its generated run (Proof/RefIsSpec).
-/
import proofs.«425022_j83992380440994_3_alg».proof.Defs
import proofs.«425022_j83992380440994_3_alg».proof.Proof.Gen.Kernel
import proofs.«425022_j83992380440994_3_alg».proof.Proof.Gen.Kernel.Skeleton
import proofs.«425022_j83992380440994_3_alg».proof.Proof.Gen.Kernel.Launch
import proofs.«425022_j83992380440994_3_alg».proof.Proof.Gen.Kernel.Points
import proofs.«425022_j83992380440994_3_alg».proof.Proof.Gen.Kernel.Frame
import proofs.«425022_j83992380440994_3_alg».proof.Proof.Gen.KernelIdeal
import proofs.«425022_j83992380440994_3_alg».proof.Proof.Gen.KernelIdeal.Skeleton
import proofs.«425022_j83992380440994_3_alg».proof.Proof.Gen.KernelIdeal.Launch
import proofs.«425022_j83992380440994_3_alg».proof.Proof.Gen.KernelIdeal.Points
import proofs.«425022_j83992380440994_3_alg».proof.Proof.Gen.KernelIdeal.Frame
import proofs.«425022_j83992380440994_3_alg».proof.Proof.Gen.ReferenceIdeal
import proofs.«425022_j83992380440994_3_alg».proof.Proof.Gen.Pre_finite_inputs
import proofs.«425022_j83992380440994_3_alg».proof.Proof.Gen.KernelIdeal.Value
import proofs.«425022_j83992380440994_3_alg».proof.Proof.Gen.ReferenceIdeal.Run
import proofs.«425022_j83992380440994_3_alg».proof.Proof.Gen.ReferenceIdeal.Read
import proofs.«425022_j83992380440994_3_alg».proof.Proof.KernelValue
import proofs.«425022_j83992380440994_3_alg».proof.Proof.Bridge
import proofs.«425022_j83992380440994_3_alg».proof.Proof.Combo
import proofs.«425022_j83992380440994_3_alg».proof.Proof.PreRanges
import proofs.«425022_j83992380440994_3_alg».proof.Proof.RefIsSpec
import Idealize.ShloMosaic.Adequacy
import Idealize.ShloMosaic.Init

noncomputable section

namespace Cert.Proof

open Idealize.ShloMosaic Idealize.ShloMosaic.TcCoe Idealize.SL.Sem Idealize.ShloMosaic.ValueIdx

/-! ## The three results, as functions of the kernel's argument arrays -/

section Results

variable (m : (ℓ : Loc Cert.KernelIdeal.nD Cert.KernelIdeal.τ Cert.KernelIdeal.sig) → Buf (Elt Ideal) ℓ)
  (c : Dev Cert.KernelIdeal.nD)

abbrev a0 := m ((c.tc : Thread Cert.KernelIdeal.nD Cert.KernelIdeal.τ).loc Cert.KernelIdeal.main_arg0)
abbrev a1 := m ((c.tc : Thread Cert.KernelIdeal.nD Cert.KernelIdeal.τ).loc Cert.KernelIdeal.main_arg1)
abbrev a2 := m ((c.tc : Thread Cert.KernelIdeal.nD Cert.KernelIdeal.τ).loc Cert.KernelIdeal.main_arg2)
abbrev a3 := m ((c.tc : Thread Cert.KernelIdeal.nD Cert.KernelIdeal.τ).loc Cert.KernelIdeal.main_arg3)
abbrev a4 := m ((c.tc : Thread Cert.KernelIdeal.nD Cert.KernelIdeal.τ).loc Cert.KernelIdeal.main_arg4)
abbrev a5 := m ((c.tc : Thread Cert.KernelIdeal.nD Cert.KernelIdeal.τ).loc Cert.KernelIdeal.main_arg5)
abbrev a6 := m ((c.tc : Thread Cert.KernelIdeal.nD Cert.KernelIdeal.τ).loc Cert.KernelIdeal.main_arg6)
abbrev a7 := m ((c.tc : Thread Cert.KernelIdeal.nD Cert.KernelIdeal.τ).loc Cert.KernelIdeal.main_arg7)

/-- The scores, counts, nodes and flags of the events' communities. -/
abbrev msOf := Cert.ReferenceIdeal.Read.val_main_v19 (F := Ideal) (a1 m c) (a3 m c) (a4 m c)
abbrev mnumOf := Cert.ReferenceIdeal.Read.val_main_v26 (F := Ideal) (a3 m c) (a4 m c) (a6 m c)
abbrev ngOf := Cert.ReferenceIdeal.Read.val_main_v49 (F := Ideal) (a3 m c) (a4 m c) (a5 m c)
abbrev useOf := Cert.ReferenceIdeal.Read.val_main_v12 (F := Ideal) (a3 m c) (a4 m c) (a7 m c)

/-- The three result arrays. -/
def messagesOut := Spec.messages (msOf m c) (a0 m c) (mnumOf m c) (useOf m c)
def nodesOut := Spec.nodes (ngOf m c) (mnumOf m c) (useOf m c)
def timesOut := Spec.times (a2 m c) (mnumOf m c) (useOf m c)

open Cert.KernelIdeal Cert.KernelIdeal.Gen Cert.KernelBlocks in
/-- Under the precondition the kernel's three output arrays end at the three results. -/
theorem kernel_arrays (hpre : Cert.Pre_KernelIdeal m) :
    (dats m 0 c).arrAt 4 cfg0.N = messagesOut m c ∧ (dats m 0 c).arrAt 5 cfg0.N = nodesOut m c
      ∧ (dats m 0 c).arrAt 6 cfg0.N = timesOut m c := by
  obtain ⟨hn, hc⟩ := Cert.PreRanges.ranges_of_pre _ _ _ _ _ _ _ _ (hpre c)
  have hcombo : comboA m c = Cert.KernelHost.comboK (F := Ideal)
      (Cert.KernelHost.useK (F := Ideal) (a3 m c) (a4 m c) (a7 m c))
      (Cert.KernelHost.mnumK (F := Ideal) (a3 m c) (a4 m c) (a6 m c)) (constantI S_ 32 0#32) (a2 m c) :=
    Cert.KernelHost.V_v50 m c
  have h0 : ∀ b : Fin 4096, comboA m c (ix2 b (0 : Fin 2))
      = (((Scalar.select (useOf m c (ix1 b)) (mnumOf m c (ix1 b)) 0#32).toInt : ℝ) : EReal) := by
    intro b
    rw [hcombo, Cert.Combo.col0, Cert.Bridge.use_eq (a3 m c) (a4 m c) (a7 m c) hn hc, Cert.Bridge.mnum_eq]
    rfl
  have h1 : ∀ b : Fin 4096, comboA m c (ix2 b (1 : Fin 2)) = a2 m c (ix1 b) := by
    intro b
    rw [hcombo, Cert.Combo.col1]
  have hms : msA m c = msOf m c := (Cert.KernelHost.V_v31 m c).trans (Cert.Bridge.ms_eq _ _ _)
  have hng : ngA m c = ngOf m c := (Cert.KernelHost.V_v45 m c).trans (Cert.Bridge.ng_eq _ _ _)
  have hmsg : msgA m c = a0 m c := V_main_arg0 m c
  refine ⟨?_, ?_, ?_⟩
  · rw [Cert.KernelValue.final4, Cert.Spec.messagesK_eq _ _ h0, hms, hmsg]; rfl
  · rw [Cert.KernelValue.final5, Cert.Spec.nodesK_eq _ h0, hng]; rfl
  · rw [Cert.KernelValue.final6, Cert.Spec.timesK_eq h0 h1]; rfl

end Results

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the three results of the kernel's argument arrays. -/
theorem algebraic : Cert.algebraic_KernelIdeal_ReferenceIdeal := by
  intro m ρ m' ρ' hpre hagree
  refine ⟨fun c => messagesOut m c, fun c => nodesOut m c, fun c => timesOut m c, ?_, ?_⟩
  · refine (θ_run Cert.KernelIdeal.defs _ _).mono (fun r h c => ?_) (Cert.KernelIdeal.Value.run_blocks m ρ)
    obtain ⟨h4, h5, h6, hargs⟩ := h c
    obtain ⟨k4, k5, k6⟩ := kernel_arrays m c hpre
    exact ⟨h4.trans k4, h5.trans k5, h6.trans k6, hargs⟩
  · refine (θ_run Cert.ReferenceIdeal.defs _ _).mono (fun r h c => ?_) (Cert.ReferenceIdeal.Value.run (F := Ideal) m' ρ')
    obtain ⟨g42, g50, g52, gargs⟩ := h c
    obtain ⟨e0, e1, e2, e3, e4, e5, e6, e7⟩ := hagree c
    refine ⟨g42.trans ?_, g50.trans ?_, g52.trans ?_, gargs⟩
    · rw [Cert.ReferenceIdeal.Read.val_main_v42_eq, Cert.RefSpec.messages_eq, e0, e1, e3, e4, e6, e7]; rfl
    · rw [Cert.ReferenceIdeal.Read.val_main_v50_eq, Cert.RefSpec.nodes_eq, e3, e4, e5, e6, e7]; rfl
    · refine (Cert.ReferenceIdeal.Read.val_main_v52_eq _ _ _ _ _).trans ?_
      rw [Cert.RefSpec.times_eq, e2, e3, e4, e6, e7]; rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
